-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x64 : Shape := ⟨2, ![4194304, 64]⟩
abbrev S4x6x64 : Shape := ⟨3, ![4, 6, 64]⟩
abbrev S4x6 : Shape := ⟨2, ![4, 6]⟩
abbrev S4194304 : Shape := ⟨1, ![4194304]⟩
abbrev S_ : Shape := ⟨0, ![]⟩

class Facts : Prop where
  bcast_S_S4194304x64 : S_.BroadcastsInDim S4194304x64 (![] : Fin 0 → Fin S4194304x64.rank)
  reducesTo_S4194304x64_S_d0_1 : S4194304x64.ReducesTo [0, 1] S_
  h_S_ : 0 < S_.numel
  bcast_S_S4x6x64 : S_.BroadcastsInDim S4x6x64 (![] : Fin 0 → Fin S4x6x64.rank)
  reducesTo_S4x6x64_S_d0_1_2 : S4x6x64.ReducesTo [0, 1, 2] S_
  bcast_S_S4x6 : S_.BroadcastsInDim S4x6 (![] : Fin 0 → Fin S4x6.rank)
  reducesTo_S4x6_S_d0_1 : S4x6.ReducesTo [0, 1] S_
  bcast_S_S4194304 : S_.BroadcastsInDim S4194304 (![] : Fin 0 → Fin S4194304.rank)
  reducesTo_S4194304_S_d0 : S4194304.ReducesTo [0] S_

variable [Facts]

def fn_part1 {F : FTy → Type} [FloatOps F] (main_arg3 : IVec S4194304 32) (main_v13 : IVec S_ 1) (main_v15 : IVec S4194304 1) (main_c_5 : IVec S_ 32) : IVec S_ 1 :=
  let main_v16 : IVec S4194304 32 := broadcastInDim S4194304 ![] bcast_S_S4194304 main_c_5
  let main_v17 : IVec S4194304 1 := cmpi .slt main_arg3 main_v16
  let main_v18 : IVec S4194304 1 := andi main_v15 main_v17
  let main_c_6 : IVec S_ 1 := constantI S_ 1 1#1
  let main_v19 : IVec S_ 1 := (fun x v => Host.reduce IntOp.andi x v reducesTo_S4194304_S_d0 h_S_) main_v18 main_c_6
  let main_v20 : IVec S_ 1 := andi main_v13 main_v19
  main_v20

def fn {F : FTy → Type} [FloatOps F] (main_arg0 : FVec F S4194304x64 .f32) (main_arg1 : FVec F S4x6x64 .f32) (main_arg2 : FVec F S4x6 .f32) (main_arg3 : IVec S4194304 32) : IVec S_ 1 :=
  let main_v0 : FVec F S4194304x64 .f32 := Host.absf main_arg0
  let main_cst : FVec F S_ .f32 := constant S_ .f32 0x7F800000#32
  let main_v1 : FVec F S4194304x64 .f32 := broadcastInDim S4194304x64 ![] bcast_S_S4194304x64 main_cst
  let main_v2 : IVec S4194304x64 1 := cmpf .olt main_v0 main_v1
  let main_c : IVec S_ 1 := constantI S_ 1 1#1
  let main_v3 : IVec S_ 1 := (fun x v => Host.reduce IntOp.andi x v reducesTo_S4194304x64_S_d0_1 h_S_) main_v2 main_c
  let main_v4 : FVec F S4x6x64 .f32 := Host.absf main_arg1
  let main_cst_0 : FVec F S_ .f32 := constant S_ .f32 0x7F800000#32
  let main_v5 : FVec F S4x6x64 .f32 := broadcastInDim S4x6x64 ![] bcast_S_S4x6x64 main_cst_0
  let main_v6 : IVec S4x6x64 1 := cmpf .olt main_v4 main_v5
  let main_c_1 : IVec S_ 1 := constantI S_ 1 1#1
  let main_v7 : IVec S_ 1 := (fun x v => Host.reduce IntOp.andi x v reducesTo_S4x6x64_S_d0_1_2 h_S_) main_v6 main_c_1
  let main_v8 : IVec S_ 1 := andi main_v3 main_v7
  let main_v9 : FVec F S4x6 .f32 := Host.absf main_arg2
  let main_cst_2 : FVec F S_ .f32 := constant S_ .f32 0x7F800000#32
  let main_v10 : FVec F S4x6 .f32 := broadcastInDim S4x6 ![] bcast_S_S4x6 main_cst_2
  let main_v11 : IVec S4x6 1 := cmpf .olt main_v9 main_v10
  let main_c_3 : IVec S_ 1 := constantI S_ 1 1#1
  let main_v12 : IVec S_ 1 := (fun x v => Host.reduce IntOp.andi x v reducesTo_S4x6_S_d0_1 h_S_) main_v11 main_c_3
  let main_v13 : IVec S_ 1 := andi main_v8 main_v12
  let main_c_4 : IVec S_ 32 := constantI S_ 32 0#32
  let main_v14 : IVec S4194304 32 := broadcastInDim S4194304 ![] bcast_S_S4194304 main_c_4
  let main_v15 : IVec S4194304 1 := cmpi .sge main_arg3 main_v14
  let main_c_5 : IVec S_ 32 := constantI S_ 32 6#32
  fn_part1 (F := F) main_arg3 main_v13 main_v15 main_c_5
-- ==== Kernel.lean ====
abbrev S4194304x64 : Shape := ⟨2, ![4194304, 64]⟩
abbrev S4x6x64 : Shape := ⟨3, ![4, 6, 64]⟩
abbrev S4x6 : Shape := ⟨2, ![4, 6]⟩
abbrev S4194304 : Shape := ⟨1, ![4194304]⟩
abbrev S4194304x1 : Shape := ⟨2, ![4194304, 1]⟩
abbrev S4x64x6 : Shape := ⟨3, ![4, 64, 6]⟩
abbrev S4x4194304 : Shape := ⟨2, ![4, 4194304]⟩
abbrev S8192x64 : Shape := ⟨2, ![8192, 64]⟩
abbrev S8192x1 : Shape := ⟨2, ![8192, 1]⟩
abbrev S4x8192 : Shape := ⟨2, ![4, 8192]⟩
abbrev S8192x6 : Shape := ⟨2, ![8192, 6]⟩
abbrev S1x64x6 : Shape := ⟨3, ![1, 64, 6]⟩
abbrev S64x6 : Shape := ⟨2, ![64, 6]⟩
abbrev S1x6 : Shape := ⟨2, ![1, 6]⟩
abbrev S6 : Shape := ⟨1, ![6]⟩
abbrev S8192 : Shape := ⟨1, ![8192]⟩
abbrev S1x8192 : Shape := ⟨2, ![1, 8192]⟩

abbrev nBuf : Space → Nat
  | .hbm => 7
  | .vmem => 8
  | .smem => 0
  | _ => 0

abbrev bufTy : (tb : Table) → Fin (tcTables nBuf tb) → BufTy
  | .hbm, ⟨0, _⟩ => ⟨S4194304x64, .f32⟩
  | .hbm, ⟨1, _⟩ => ⟨S4x6x64, .f32⟩
  | .hbm, ⟨2, _⟩ => ⟨S4x6, .f32⟩
  | .hbm, ⟨3, _⟩ => ⟨S4194304, .i32⟩
  | .hbm, ⟨4, _⟩ => ⟨S4194304x1, .i32⟩
  | .hbm, ⟨5, _⟩ => ⟨S4x64x6, .f32⟩
  | .hbm, ⟨6, _⟩ => ⟨S4x4194304, .f32⟩
  | .local _ .vmem, ⟨0, _⟩ => ⟨S8192x64, .f32⟩
  | .local _ .vmem, ⟨1, _⟩ => ⟨S8192x64, .f32⟩
  | .local _ .vmem, ⟨2, _⟩ => ⟨S8192x1, .i32⟩
  | .local _ .vmem, ⟨3, _⟩ => ⟨S8192x1, .i32⟩
  | .local _ .vmem, ⟨4, _⟩ => ⟨S4x64x6, .f32⟩
  | .local _ .vmem, ⟨5, _⟩ => ⟨S4x6, .f32⟩
  | .local _ .vmem, ⟨6, _⟩ => ⟨S4x8192, .f32⟩
  | .local _ .vmem, ⟨7, _⟩ => ⟨S4x8192, .f32⟩
  | _, _ => ⟨S4194304x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4194304_S4194304x1 : S4194304.ShapeCasts S4194304x1
  transposes_S4x6x64_S4x64x6_0_2_1 : S4x6x64.Transposes [0, 2, 1] S4x64x6
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x6_d1_w32 : S8192x6.Iotas .tc 32 [1]
  broadcasts_S8192x1_S8192x6 : S8192x1.Broadcasts S8192x6
  natLt_1_32 : 1 < 32
  inb_S4x64x6_S1x64x6_0_0_0 : ∀ a, (![0, 0, 0] : Fin 3 → Nat) a + S1x64x6.size a ≤ S4x64x6.size a
  h_S1x64x6 : 0 < S1x64x6.numel
  shapeCasts_S1x64x6_S64x6 : S1x64x6.ShapeCasts S64x6
  inb_S4x6_S1x6_0_0 : ∀ a, (![0, 0] : Fin 2 → Nat) a + S1x6.size a ≤ S4x6.size a
  h_S1x6 : 0 < S1x6.numel
  shapeCasts_S1x6_S6 : S1x6.ShapeCasts S6
  shapeCasts_S6_S1x6 : S6.ShapeCasts S1x6
  broadcasts_S1x6_S8192x6 : S1x6.Broadcasts S8192x6
  reduces_S8192x6_S8192 : S8192x6.Reduces [1] S8192
  inb_S4x8192_S1x8192_0_0 : ∀ a, (![0, 0] : Fin 2 → Nat) a + S1x8192.size a ≤ S4x8192.size a
  h_S1x8192 : 0 < S1x8192.numel
  shapeCasts_S1x8192_S8192 : S1x8192.ShapeCasts S8192
  shapeCasts_S8192_S1x8192 : S8192.ShapeCasts S1x8192
  inb_S4x64x6_S1x64x6_1_0_0 : ∀ a, (![1, 0, 0] : Fin 3 → Nat) a + S1x64x6.size a ≤ S4x64x6.size a
  inb_S4x6_S1x6_1_0 : ∀ a, (![1, 0] : Fin 2 → Nat) a + S1x6.size a ≤ S4x6.size a
  inb_S4x8192_S1x8192_1_0 : ∀ a, (![1, 0] : Fin 2 → Nat) a + S1x8192.size a ≤ S4x8192.size a
  inb_S4x64x6_S1x64x6_2_0_0 : ∀ a, (![2, 0, 0] : Fin 3 → Nat) a + S1x64x6.size a ≤ S4x64x6.size a
  inb_S4x6_S1x6_2_0 : ∀ a, (![2, 0] : Fin 2 → Nat) a + S1x6.size a ≤ S4x6.size a
  inb_S4x8192_S1x8192_2_0 : ∀ a, (![2, 0] : Fin 2 → Nat) a + S1x8192.size a ≤ S4x8192.size a
  inb_S4x64x6_S1x64x6_3_0_0 : ∀ a, (![3, 0, 0] : Fin 3 → Nat) a + S1x64x6.size a ≤ S4x64x6.size a
  inb_S4x6_S1x6_3_0 : ∀ a, (![3, 0] : Fin 2 → Nat) a + S1x6.size a ≤ S4x6.size a
  inb_S4x8192_S1x8192_3_0 : ∀ a, (![3, 0] : Fin 2 → Nat) a + S1x8192.size a ≤ S4x8192.size a
  dot_S8192x64_S64x6_S8192x6_1_0_0_1_n_n_wf : DotDims.WF S8192x64 S64x6 S8192x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S4194304x64.size a
  hwx0_0 : ∀ i : grid0.Coords, EltTy.bits .f32 = 32 ∨ (Rect.block (s := S4194304x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S4194304x1.size a
  hwx0_1 : ∀ i : grid0.Coords, EltTy.bits .i32 = 32 ∨ (Rect.block (s := S4194304x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64x6.size a ≤ S4x64x6.size a
  hwx0_2 : ∀ i : grid0.Coords, EltTy.bits .f32 = 32 ∨ (Rect.block (s := S4x64x6) S4x64x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x6.size a ≤ S4x6.size a
  hwx0_3 : ∀ i : grid0.Coords, EltTy.bits .f32 = 32 ∨ (Rect.block (s := S4x6) S4x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x8192.size a ≤ S4x4194304.size a
  hwx0_4 : ∀ i : grid0.Coords, EltTy.bits .f32 = 32 ∨ (Rect.block (s := S4x4194304) S4x8192.size (cc0_transform_4 i) (hinb0_4 i)).WholeWords (EltTy.packing .f32)

variable [Facts₀]

def dot_S8192x64_S64x6_S8192x6_1_0_0_1_n_n : DotDims S8192x64 S64x6 S8192x6 where
  lhsContracting := [1]
  rhsContracting := [0]
  lhsNonContracting := [0]
  rhsNonContracting := [1]
  lhsBatch := []
  rhsBatch := []
  wf := dot_S8192x64_S64x6_S8192x6_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x64x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4194304x64 : Shape := ⟨2, ![4194304, 64]⟩
abbrev S4x6x64 : Shape := ⟨3, ![4, 6, 64]⟩
abbrev S4x6 : Shape := ⟨2, ![4, 6]⟩
abbrev S4194304 : Shape := ⟨1, ![4194304]⟩
abbrev S4x6x4194304 : Shape := ⟨3, ![4, 6, 4194304]⟩
abbrev S4x6x1 : Shape := ⟨3, ![4, 6, 1]⟩
abbrev S1x1x4194304 : Shape := ⟨3, ![1, 1, 4194304]⟩
abbrev S_ : Shape := ⟨0, ![]⟩
abbrev S1x4194304x1 : Shape := ⟨3, ![1, 4194304, 1]⟩
abbrev S1 : Shape := ⟨1, ![1]⟩
abbrev S1x1x1 : Shape := ⟨3, ![1, 1, 1]⟩
abbrev S1x4194304 : Shape := ⟨2, ![1, 4194304]⟩
abbrev S4x1x4194304 : Shape := ⟨3, ![4, 1, 4194304]⟩
abbrev S4x4194304 : Shape := ⟨2, ![4, 4194304]⟩

abbrev nBuf : Space → Nat
  | .hbm => 33
  | .vmem => 0
  | .smem => 0
  | _ => 0

abbrev bufTy : (tb : Table) → Fin (tcTables nBuf tb) → BufTy
  | .hbm, ⟨0, _⟩ => ⟨S4194304x64, .f32⟩
  | .hbm, ⟨1, _⟩ => ⟨S4x6x64, .f32⟩
  | .hbm, ⟨2, _⟩ => ⟨S4x6, .f32⟩
  | .hbm, ⟨3, _⟩ => ⟨S4194304, .i32⟩
  | .hbm, ⟨4, _⟩ => ⟨S4x6x4194304, .f32⟩
  | .hbm, ⟨5, _⟩ => ⟨S4x6x1, .f32⟩
  | .hbm, ⟨6, _⟩ => ⟨S4x6x4194304, .f32⟩
  | .hbm, ⟨7, _⟩ => ⟨S4x6x4194304, .f32⟩
  | .hbm, ⟨8, _⟩ => ⟨S1x1x4194304, .i32⟩
  | .hbm, ⟨9, _⟩ => ⟨S_, .i32⟩
  | .hbm, ⟨10, _⟩ => ⟨S1x1x4194304, .i32⟩
  | .hbm, ⟨11, _⟩ => ⟨S1x1x4194304, .i1⟩
  | .hbm, ⟨12, _⟩ => ⟨S_, .i32⟩
  | .hbm, ⟨13, _⟩ => ⟨S1x1x4194304, .i32⟩
  | .hbm, ⟨14, _⟩ => ⟨S1x1x4194304, .i32⟩
  | .hbm, ⟨15, _⟩ => ⟨S1x1x4194304, .i32⟩
  | .hbm, ⟨16, _⟩ => ⟨S1x4194304x1, .i32⟩
  | .hbm, ⟨17, _⟩ => ⟨S1, .i32⟩
  | .hbm, ⟨18, _⟩ => ⟨S_, .i32⟩
  | .hbm, ⟨19, _⟩ => ⟨S1x4194304x1, .i32⟩
  | .hbm, ⟨20, _⟩ => ⟨S1x4194304x1, .i1⟩
  | .hbm, ⟨21, _⟩ => ⟨S1x1x1, .i32⟩
  | .hbm, ⟨22, _⟩ => ⟨S1x4194304x1, .i32⟩
  | .hbm, ⟨23, _⟩ => ⟨S1x4194304x1, .i1⟩
  | .hbm, ⟨24, _⟩ => ⟨S1x4194304x1, .i1⟩
  | .hbm, ⟨25, _⟩ => ⟨S_, .i1⟩
  | .hbm, ⟨26, _⟩ => ⟨S1x4194304, .i1⟩
  | .hbm, ⟨27, _⟩ => ⟨S4x1x4194304, .f32⟩
  | .hbm, ⟨28, _⟩ => ⟨S4x1x4194304, .i1⟩
  | .hbm, ⟨29, _⟩ => ⟨S_, .f32⟩
  | .hbm, ⟨30, _⟩ => ⟨S4x1x4194304, .f32⟩
  | .hbm, ⟨31, _⟩ => ⟨S4x1x4194304, .f32⟩
  | .hbm, ⟨32, _⟩ => ⟨S4x4194304, .f32⟩
  | _, _ => ⟨S4194304x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  bcast_S4x6_S4x6x1_0_1 : S4x6.BroadcastsInDim S4x6x1 (![0, 1] : Fin 2 → Fin S4x6x1.rank)
  bcast_S4x6x1_S4x6x4194304_0_1_2 : S4x6x1.BroadcastsInDim S4x6x4194304 (![0, 1, 2] : Fin 3 → Fin S4x6x4194304.rank)
  bcast_S4194304_S1x1x4194304_2 : S4194304.BroadcastsInDim S1x1x4194304 (![2] : Fin 1 → Fin S1x1x4194304.rank)
  bcast_S_S1x1x4194304 : S_.BroadcastsInDim S1x1x4194304 (![] : Fin 0 → Fin S1x1x4194304.rank)
  shapeCasts_S1x1x4194304_S1x4194304x1 : S1x1x4194304.ShapeCasts S1x4194304x1
  bcast_S_S1x4194304x1 : S_.BroadcastsInDim S1x4194304x1 (![] : Fin 0 → Fin S1x4194304x1.rank)
  bcast_S1_S1x1x1_2 : S1.BroadcastsInDim S1x1x1 (![2] : Fin 1 → Fin S1x1x1.rank)
  bcast_S1x1x1_S1x4194304x1_0_1_2 : S1x1x1.BroadcastsInDim S1x4194304x1 (![0, 1, 2] : Fin 3 → Fin S1x4194304x1.rank)
  reducesTo_S1x4194304x1_S1x4194304_d2 : S1x4194304x1.ReducesTo [2] S1x4194304
  h_S_ : 0 < S_.numel
  bcast_S1x4194304_S4x1x4194304_1_2 : S1x4194304.BroadcastsInDim S4x1x4194304 (![1, 2] : Fin 2 → Fin S4x1x4194304.rank)
  bcast_S_S4x1x4194304 : S_.BroadcastsInDim S4x1x4194304 (![] : Fin 0 → Fin S4x1x4194304.rank)
  shapeCasts_S4x1x4194304_S4x4194304 : S4x1x4194304.ShapeCasts S4x4194304
  dot_S4x6x64_S4194304x64_S4x6x4194304_2_1_01_0_n_n_wf : DotDims.WF S4x6x64 S4194304x64 S4x6x4194304 [2] [1] [0, 1] [0] [] []
  gather_S4x6x4194304_S1x4194304x1_S4x1x4194304_0_1_2_1_1_2_411_wf : GatherDims.WF S4x6x4194304 S1x4194304x1 S4x1x4194304 [0] [1] [2] [1] [1] 2 ![4, 1, 1]

variable [Facts₀]

def dot_S4x6x64_S4194304x64_S4x6x4194304_2_1_01_0_n_n : DotDims S4x6x64 S4194304x64 S4x6x4194304 where
  lhsContracting := [2]
  rhsContracting := [1]
  lhsNonContracting := [0, 1]
  rhsNonContracting := [0]
  lhsBatch := []
  rhsBatch := []
  wf := dot_S4x6x64_S4194304x64_S4x6x4194304_2_1_01_0_n_n_wf
def gather_S4x6x4194304_S1x4194304x1_S4x1x4194304_0_1_2_1_1_2_411 : GatherDims S4x6x4194304 S1x4194304x1 S4x1x4194304 where
  offsetDims := [0]
  collapsedSliceDims := [1]
  operandBatchingDims := [2]
  startIndicesBatchingDims := [1]
  startIndexMap := [1]
  indexVectorDim := 2
  sliceSizes := ![4, 1, 1]
  wf := gather_S4x6x4194304_S1x4194304x1_S4x1x4194304_0_1_2_1_1_2_411_wf

class Facts : Prop extends Facts₀ where

variable [Facts]
-- ==== Proof.PairSelect.lean ====
/-
  The selection law of this certificate, free of any program.

  Each row `n` of the input carries a pair index `idx n`, a 32-bit word that the precondition keeps in `[0, 6)`.
  The kernel computes, for relation `r` and row `n`, all six head values
      `h r n p = (∑ k, z[n,k] · Wt[r,k,p]) + b[r,p]`        (p = 0 … 5)
  and selects one of them by multiplying with the indicator of `idx n = p` (an equality bit, widened to 32 bits and
  converted to a float: exactly `1` or `0`) and summing over `p`.  Over the extended reals `x · 0 = 0` for EVERY `x`
  (also the infinities) and `x · 1 = x`, so the sum is the one head value at `p = idx n`: no finiteness is used.
  The reference gathers that same head value directly.
-/
import Idealize.ShloMosaic.PureOps.Ideal
import Idealize.ShloMosaic.Lib.ValueIdx

noncomputable section

open scoped BigOperators

namespace Cert.PairSelect

open Idealize.ShloMosaic Idealize.ShloMosaic.ValueIdx

/-- A pair index is admissible when, read as a signed integer, it lies in `[0, 6)`. -/
def InRange (w : BitVec 32) : Prop := 0 ≤ w.toInt ∧ w.toInt < 6

/-- An admissible pair index is a small natural. -/
theorem InRange.toNat_lt {w : BitVec 32} (h : InRange w) : w.toNat < 6 := by
  obtain ⟨h0, h1⟩ := h
  have := BitVec.toInt_eq_toNat_cond (x := w)
  have hlt := w.isLt
  split at this <;> omega

/-- For an admissible pair index the signed reading is the unsigned one. -/
theorem InRange.toInt_eq {w : BitVec 32} (h : InRange w) : w.toInt = (w.toNat : ℤ) := by
  obtain ⟨h0, h1⟩ := h
  have := BitVec.toInt_eq_toNat_cond (x := w)
  have hlt := w.isLt
  split at this <;> omega

/-- The position in `[0, 6)` a pair index names (reduced mod 6 so that it is total; the reduction is idle on admissible
    indices). -/
def pos (w : BitVec 32) : Fin 6 := ⟨w.toNat % 6, Nat.mod_lt _ (by decide)⟩

theorem InRange.pos_val {w : BitVec 32} (h : InRange w) : (pos w).val = w.toNat := Nat.mod_eq_of_lt h.toNat_lt

/-- An admissible pair index is the word of its position. -/
theorem InRange.eq_ofNat {w : BitVec 32} (h : InRange w) : w = BitVec.ofNat 32 (pos w).val := by
  rw [h.pos_val]; exact BitVec.eq_of_toNat_eq (by rw [BitVec.toNat_ofNat, Nat.mod_eq_of_lt w.isLt])

/-- The widened equality bit of two words, converted as a signed integer, is `1` where they agree and `0` where not. -/
theorem indicator (w v : BitVec 32) :
    ((((IntOp.cmpi .eq w v).setWidth 32).toInt : ℝ) : EReal) = if w = v then 1 else 0 := by
  unfold IntOp.cmpi
  by_cases h : w = v
  · rw [if_pos h, show (w == v) = true from beq_iff_eq.mpr h]
    rw [show ((BitVec.ofBool true).setWidth 32).toInt = 1 by decide]; norm_num
  · rw [if_neg h, show (w == v) = false from beq_eq_false_iff_ne.mpr h]
    rw [show ((BitVec.ofBool false).setWidth 32).toInt = 0 by decide]; norm_num

/-- Two positions below 6 with the same 32-bit word are the same position. -/
theorem ofNat_inj6 {p q : Fin 6} (h : BitVec.ofNat 32 p.val = BitVec.ofNat 32 q.val) : p = q := by
  have := congrArg BitVec.toNat h
  rw [BitVec.toNat_ofNat, BitVec.toNat_ofNat] at this
  have hp := p.isLt; have hq := q.isLt
  exact Fin.ext (by omega)

/-- THE SELECTION: six values weighted by the indicator of "the pair index is `q`" sum to the value at the pair index's
    position. -/
theorem sum_indicator (f : Fin 6 → EReal) (w : BitVec 32) (hw : InRange w) :
    ∑ q : Fin 6, f q * ((((IntOp.cmpi .eq w (BitVec.ofNat 32 q.val)).setWidth 32).toInt : ℝ) : EReal) = f (pos w) := by
  rw [Finset.sum_eq_single (pos w)]
  · rw [indicator, if_pos hw.eq_ofNat, mul_one]
  · intro q _ hq
    rw [indicator, if_neg, mul_zero]
    intro h
    exact hq (ofNat_inj6 (h.symm.trans hw.eq_ofNat))
  · intro h; exact absurd (Finset.mem_univ _) h

/-! ## The specification both programs meet -/

/-- The head of relation `r` for row `n`: the head of the pair that the row's index names,
    `(∑ k, W[r, p, k] · z[n, k]) + b[r, p]` with `p = pair_idx[n]`. -/
def selectedAt (z : (⟨2, ![4194304, 64]⟩ : Shape).Idx → EReal) (W : (⟨3, ![4, 6, 64]⟩ : Shape).Idx → EReal)
    (b : (⟨2, ![4, 6]⟩ : Shape).Idx → EReal) (idx : (⟨1, ![4194304]⟩ : Shape).Idx → BitVec 32) (r : Fin 4) (n : Fin 4194304) : EReal :=
  (∑ k : Fin 64, W (ix3 r (pos (idx (ix1 n))) k) * z (ix2 n k)) + b (ix2 r (pos (idx (ix1 n))))

/-- The result array [4, N] both programs end with. -/
def selected (z : (⟨2, ![4194304, 64]⟩ : Shape).Idx → EReal) (W : (⟨3, ![4, 6, 64]⟩ : Shape).Idx → EReal)
    (b : (⟨2, ![4, 6]⟩ : Shape).Idx → EReal) (idx : (⟨1, ![4194304]⟩ : Shape).Idx → BitVec 32) :
    (⟨2, ![4, 4194304]⟩ : Shape).Idx → EReal :=
  fun i => selectedAt z W b idx (i 0) (i 1)

theorem selected_apply (z : (⟨2, ![4194304, 64]⟩ : Shape).Idx → EReal) (W : (⟨3, ![4, 6, 64]⟩ : Shape).Idx → EReal)
    (b : (⟨2, ![4, 6]⟩ : Shape).Idx → EReal) (idx : (⟨1, ![4194304]⟩ : Shape).Idx → BitVec 32) (r : Fin 4) (n : Fin 4194304) :
    selected z W b idx (ix2 r n) = selectedAt z W b idx r n := rfl

end Cert.PairSelect

end
-- ==== Proof.PreDecode.lean ====
/-
  What the precondition says of the pair indices.

  The precondition is the conjunction of "every float input is finite" with
  `all (0 ≤ pair_idx) ∧ (pair_idx < 6)`; only the second part is used by this certificate.  Read at a row `n` it says
  that the pair index there, as a signed 32-bit integer, lies in `[0, 6)`.
-/
import proofs.«424766_j76897094467881_1_alg».proof.Proof.Gen.Pre_finite_inputs
import proofs.«424766_j76897094467881_1_alg».proof.Proof.PairSelect
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx Cert.PairSelect

instance : Subsingleton S_.Idx := ⟨fun a b => funext fun d => d.elim0⟩

/-- Under the precondition every pair index is admissible. -/
theorem range_of_pre {F : FTy → Type} [FloatOps F] [Facts] (a0 : FVec F S4194304x64 .f32) (a1 : FVec F S4x6x64 .f32)
    (a2 : FVec F S4x6 .f32) (a3 : IVec S4194304 32) (h : fn (F := F) a0 a1 a2 a3 = fun _ => 1#1) (n : Fin 4194304) :
    InRange (a3 (ix1 n)) := by
  have h0 := congrFun h ix0
  dsimp only [fn, fn_part1] at h0
  obtain ⟨-, h19⟩ := IntOp.andi_eq_one.1 h0
  have h18 := Host.reduce_andi_all _ _ _ _ _ h19 (ix1 n)
  obtain ⟨h15, h17⟩ := IntOp.andi_eq_one.1 h18
  have g0 := IntOp.cmpi_sge.1 h15
  have g1 := IntOp.cmpi_slt.1 h17
  exact ⟨g0, g1⟩

end Cert.Pre_finite_inputs.Decode

end
-- ==== Proof.HeadValue.lean ====
/-
  One relation's selected head over one tile of rows, read at a row.

  The kernel body computes, for each of the four relations `r`, the same vector over the tile's 8192 rows: the tile of
  `z` (cast to bf16: the identity on extended reals) times that relation's 64 × 6 weight slice, plus its bias row,
  times the one-hot mask of the rows' pair indices, summed over the six lanes.  The four stores' payloads are four
  spellings of that ONE function `headRow` of (tile of z, mask, weight slice, bias row); here it is named once and read at
  a row `n`:
      `headRow z' mask w b  n = ∑ q < 6, ((∑ k < 64, z'[n,k] · w[0,k,q]) + b[0,q]) · mask[n,q]`,
  and the mask at (n, q) is the indicator of "row n's pair index is q".
-/
import proofs.«424766_j76897094467881_1_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators

namespace Cert.KernelIdeal.HeadValue

open Cert.KernelIdeal Cert.KernelIdeal.Gen Idealize.ShloMosaic Idealize.ShloMosaic.ValueIdx

/-! ## The head vector, at any float instance -/

section AnyInstance
variable {F : FTy → Type} [FloatOps F]

/-- The selected head of one relation over a tile: matmul into zero, bias broadcast down the rows, mask, lane sum. -/
def headRow (v1 : FVec F S8192x64 .bf16) (v8 : FVec F S8192x6 .f32) (w : Vec F S1x64x6 .f32) (bb : Vec F S1x6 .f32) :
    FVec F S8192 .f32 :=
  multiReduction .add [1] S8192
    (mulf (addf (matmul dot_S8192x64_S64x6_S8192x6_1_0_0_1_n_n none v1
          (truncf .bf16 (shapeCast S64x6 w shapeCasts_S1x64x6_S64x6) bitsLt_bf16_f32) (constant S8192x6 .f32 0x00000000#32))
        (broadcastTo S8192x6 (shapeCast S1x6 (shapeCast S6 bb shapeCasts_S1x6_S6) shapeCasts_S6_S1x6) broadcasts_S1x6_S8192x6))
      v8)
    0x00000000#32 reduces_S8192x6_S8192 (.inl rfl) rfl

/-- The first store's payload (relation 0) is the head vector as a one-row block. -/
theorem pay6_eq (v0 : Vec F S8192x64 .f32) (v2 : Vec F S8192x1 .i32) (v9 : Vec F S1x64x6 .f32) (v12 : Vec F S1x6 .f32) :
    k0_pay6 v0 v2 v9 v12 = shapeCast S1x8192 (headRow (k0_pay4 v0) (k0_pay5 v2) v9 v12) shapeCasts_S8192_S1x8192 := rfl

/-- The second store's payload (relation 1). -/
theorem pay1_eq (v0 : Vec F S8192x64 .f32) (v2 : Vec F S8192x1 .i32) (v23 : Vec F S1x64x6 .f32) (v26 : Vec F S1x6 .f32) :
    k0_pay1 (k0_pay7 v0 v2 v23 v26) = shapeCast S1x8192 (headRow (k0_pay4 v0) (k0_pay5 v2) v23 v26) shapeCasts_S8192_S1x8192 := rfl

/-- The third store's payload (relation 2). -/
theorem pay2_eq (v1 : FVec F S8192x64 .bf16) (v8 : FVec F S8192x6 .f32) (v37 : Vec F S1x64x6 .f32) (v40 : Vec F S1x6 .f32) :
    k0_pay2 v1 v8 v37 v40 = shapeCast S1x8192 (headRow v1 v8 v37 v40) shapeCasts_S8192_S1x8192 := rfl

/-- The fourth store's payload (relation 3). -/
theorem pay3_eq (v1 : FVec F S8192x64 .bf16) (v8 : FVec F S8192x6 .f32) (v51 : Vec F S1x64x6 .f32) (v54 : Vec F S1x6 .f32) :
    k0_pay3 v1 v8 v51 v54 = shapeCast S1x8192 (headRow v1 v8 v51 v54) shapeCasts_S8192_S1x8192 := rfl

end AnyInstance

/-! ## The matrix product read at an element -/

theorem lhs_mm_0 (i : S8192x6.Idx) (q : dot_S8192x64_S64x6_S8192x6_1_0_0_1_n_n.contr.Idx) :
    (dot_S8192x64_S64x6_S8192x6_1_0_0_1_n_n.lhsIdx i q 0).val = (i 0).val := by
  unfold DotDims.lhsIdx
  rw [dif_neg (show ¬(0 : Fin S8192x64.rank) ∈ dot_S8192x64_S64x6_S8192x6_1_0_0_1_n_n.lhsBatch by decide), dif_pos (show (0 : Fin S8192x64.rank) ∈ dot_S8192x64_S64x6_S8192x6_1_0_0_1_n_n.lhsNonContracting by decide)]
  rfl
theorem lhs_mm_1 (i : S8192x6.Idx) (q : dot_S8192x64_S64x6_S8192x6_1_0_0_1_n_n.contr.Idx) :
    (dot_S8192x64_S64x6_S8192x6_1_0_0_1_n_n.lhsIdx i q 1).val = (q ⟨0, by decide⟩).val :=
  dot_S8192x64_S64x6_S8192x6_1_0_0_1_n_n.lhsIdx_val_of_single rfl i q
theorem rhs_mm_0 (i : S8192x6.Idx) (q : dot_S8192x64_S64x6_S8192x6_1_0_0_1_n_n.contr.Idx) :
    (dot_S8192x64_S64x6_S8192x6_1_0_0_1_n_n.rhsIdx i q 0).val = (q ⟨0, by decide⟩).val :=
  dot_S8192x64_S64x6_S8192x6_1_0_0_1_n_n.rhsIdx_val_of_single rfl i q
theorem rhs_mm_1 (i : S8192x6.Idx) (q : dot_S8192x64_S64x6_S8192x6_1_0_0_1_n_n.contr.Idx) :
    (dot_S8192x64_S64x6_S8192x6_1_0_0_1_n_n.rhsIdx i q 1).val = (i 1).val := by
  unfold DotDims.rhsIdx
  rw [dif_neg (show ¬(1 : Fin S64x6.rank) ∈ dot_S8192x64_S64x6_S8192x6_1_0_0_1_n_n.rhsBatch by decide), dif_pos (show (1 : Fin S64x6.rank) ∈ dot_S8192x64_S64x6_S8192x6_1_0_0_1_n_n.rhsNonContracting by decide)]
  rfl

/-- The tile's product with a 64 × 6 slice, into the zero accumulator, at (row n, lane q): the sum over the 64 latent
    coordinates. -/
theorem matmul_at (l : FVec Ideal S8192x64 .bf16) (r : FVec Ideal S64x6 .bf16) (n : Fin 8192) (q : Fin 6) :
    matmul dot_S8192x64_S64x6_S8192x6_1_0_0_1_n_n none l r (constant (F := Ideal) S8192x6 .f32 0x00000000#32) (ix2 n q)
      = ∑ k : Fin 64, l (ix2 n k) * r (ix2 k q) := by
  simp only [matmul]
  rw [Ideal.matmul_constant_zero_apply, ← Equiv.sum_comp (contrEquiv1 dot_S8192x64_S64x6_S8192x6_1_0_0_1_n_n 64 rfl rfl).symm]
  refine Finset.sum_congr rfl fun k _ => ?_
  have hk := contrEquiv1_symm_val dot_S8192x64_S64x6_S8192x6_1_0_0_1_n_n 64 rfl rfl k
  have el : dot_S8192x64_S64x6_S8192x6_1_0_0_1_n_n.lhsIdx (ix2 n q) ((contrEquiv1 dot_S8192x64_S64x6_S8192x6_1_0_0_1_n_n 64 rfl rfl).symm k) = ix2 n k := funext fun a => Fin.ext (by
    match a with
    | ⟨0, _⟩ => exact lhs_mm_0 _ _
    | ⟨1, _⟩ => exact (lhs_mm_1 _ _).trans hk)
  have er : dot_S8192x64_S64x6_S8192x6_1_0_0_1_n_n.rhsIdx (ix2 n q) ((contrEquiv1 dot_S8192x64_S64x6_S8192x6_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

/-! ## The head vector at a row -/

/-- A relation's weight slice, loaded as a [1, 64, 6] block and viewed [64, 6], reads (k, q) at (0, k, q). -/
theorem slice_at (w : FVec Ideal S1x64x6 .f32) (k : Fin 64) (q : Fin 6) :
    shapeCast S64x6 w shapeCasts_S1x64x6_S64x6 (ix2 k q) = w (ix3 (0 : Fin 1) k q) :=
  shapeCast_apply w shapeCasts_S1x64x6_S64x6 (ix2 k q) (ix3 (0 : Fin 1) k q)
    (by rewrite [Shape.rowMajor_val_three, Shape.rowMajor_val_two]; show (0 * 64 + k.val) * 6 + q.val = k.val * 6 + q.val; omega)

/-- A relation's bias row, broadcast down the tile's rows, reads (n, q) at (0, q). -/
theorem bias_at (bb : FVec Ideal S1x6 .f32) (n : Fin 8192) (q : Fin 6) :
    broadcastTo S8192x6 (shapeCast S1x6 (shapeCast S6 bb shapeCasts_S1x6_S6) shapeCasts_S6_S1x6) broadcasts_S1x6_S8192x6 (ix2 n q)
      = bb (ix2 (0 : Fin 1) q) := by
  rw [shapeCast_shapeCast]
  exact broadcastTo_apply bb broadcasts_S1x6_S8192x6 (ix2 n q) (ix2 (0 : Fin 1) q) (fun a => match a with
    | ⟨0, _⟩ => by show 0 = if (1 : Nat) = 1 then 0 else n.val; rw [if_pos rfl]
    | ⟨1, _⟩ => by show q.val = if (6 : Nat) = 1 then 0 else q.val; rw [if_neg (by decide)])

/-- THE HEAD VECTOR AT ROW `n`: the six lanes' (dot product + bias) · mask, summed. -/
theorem headRow_apply (v1 : FVec Ideal S8192x64 .bf16) (v8 : FVec Ideal S8192x6 .f32) (w : FVec Ideal S1x64x6 .f32)
    (bb : FVec Ideal S1x6 .f32) (n : Fin 8192) :
    headRow (F := Ideal) v1 v8 w bb (ix1 n)
      = ∑ q : Fin 6, ((∑ k : Fin 64, v1 (ix2 n k) * w (ix3 (0 : Fin 1) k q)) + bb (ix2 (0 : Fin 1) q)) * v8 (ix2 n q) := by
  unfold headRow
  refine (Ideal.multiReduction_add_single _ 0x00000000#32 reduces_S8192x6_S8192 (.inl rfl) rfl (ix1 n)).trans ?_
  refine Finset.sum_congr rfl fun (q : Fin 6) _ => ?_
  have hl : reduces_S8192x6_S8192.lift (ix1 n) q = ix2 n q := by
    funext a; match a with | ⟨0, _⟩ => rfl | ⟨1, _⟩ => rfl
  rw [hl, mulf_apply, addf_apply, matmul_at, bias_at]
  refine congrArg (fun s => (s + bb (ix2 (0 : Fin 1) q)) * v8 (ix2 n q)) ?_
  refine Finset.sum_congr rfl fun k _ => ?_
  rw [truncf_apply, slice_at]

/-! ## The mask at (row, lane) -/

/-- The one-hot mask at (n, q): the widened equality bit of row n's pair index and the lane number, as a float. -/
theorem mask_at (v2 : IVec S8192x1 32) (n : Fin 8192) (q : Fin 6) :
    k0_pay5 (F := Ideal) v2 (ix2 n q)
      = ((((IntOp.cmpi .eq (v2 (ix2 n (0 : Fin 1))) (BitVec.ofNat 32 q.val)).setWidth 32).toInt : ℝ) : EReal) := by
  have e1 : broadcastTo S8192x6 (shapeCast S8192x1 v2 shapeCasts_S8192x1_S8192x1) broadcasts_S8192x1_S8192x6 (ix2 n q)
      = v2 (ix2 n (0 : Fin 1)) := by
    rw [shapeCast_self]
    exact broadcastTo_apply v2 broadcasts_S8192x1_S8192x6 (ix2 n q) (ix2 n (0 : Fin 1)) (fun a => match a with
      | ⟨0, _⟩ => by show n.val = if (8192 : Nat) = 1 then 0 else n.val; rw [if_neg (by decide)]
      | ⟨1, _⟩ => by show 0 = if (1 : Nat) = 1 then 0 else q.val; rw [if_pos rfl])
  have e2 : iota .tc S8192x6 32 [1] iota_S8192x6_d1_w32 (ix2 n q) = BitVec.ofNat 32 q.val :=
    iota_single_apply .tc S8192x6 32 1 iota_S8192x6_d1_w32 (ix2 n q)
  unfold k0_pay5
  show ((((IntOp.cmpi .eq (broadcastTo S8192x6 (shapeCast S8192x1 v2 shapeCasts_S8192x1_S8192x1) broadcasts_S8192x1_S8192x6 (ix2 n q))
      (iota .tc S8192x6 32 [1] iota_S8192x6_d1_w32 (ix2 n q))).setWidth 32).toInt : ℝ) : EReal) = _
  rw [e1, e2]

end Cert.KernelIdeal.HeadValue

end
-- ==== Proof.TileValue.lean ====
/-
  What the kernel body leaves in the output tile, as ONE function of the four input blocks.

  The body fills its [4, 8192] output block by four stores, one row (relation) each; row `r` holds the head vector of
  relation `r`: the z tile against rows `r` of the transposed weights and of the bias, masked by the one-hot of the
  tile's pair indices and summed over the six lanes.  So the block at (r, n) is
      `tile z' idx' Wt b (r, n) = ∑ q < 6, ((∑ k < 64, z'[n,k] · Wt[r,k,q]) + b[r,q]) · [idx'[n,0] = q]`.
-/
import proofs.«424766_j76897094467881_1_alg».proof.Proof.Gen.KernelIdeal.Frame
import proofs.«424766_j76897094467881_1_alg».proof.Proof.HeadValue

noncomputable section

open scoped BigOperators

namespace Cert.KernelIdeal.TileValue

open Cert.KernelIdeal Cert.KernelIdeal.Gen Cert.KernelIdeal.HeadValue Idealize.ShloMosaic Idealize.ShloMosaic.ValueIdx

/-- The indicator of "the pair index `w` is lane `q`", as the kernel computes it. -/
abbrev ind (w : BitVec 32) (q : Fin 6) : EReal :=
  ((((IntOp.cmpi .eq w (BitVec.ofNat 32 q.val)).setWidth 32).toInt : ℝ) : EReal)

/-- The output tile as a function of the four input blocks (any arrays of those shapes). -/
def tile {R : Nat} (x0 : (⟨2, ![R, 64]⟩ : Shape).Idx → EReal) (x1 : (⟨2, ![R, 1]⟩ : Shape).Idx → BitVec 32)
    (x2 : S4x64x6.Idx → EReal) (x3 : S4x6.Idx → EReal) : (⟨2, ![4, R]⟩ : Shape).Idx → EReal :=
  fun y => ∑ q : Fin 6, ((∑ k : Fin 64, x0 (ix2 (y 1) k) * x2 (ix3 (y 0) k q)) + x3 (ix2 (y 0) q)) * ind (x1 (ix2 (y 1) (0 : Fin 1))) q

theorem hz2 : (![0, 0] : Fin 2 → Nat) = fun _ => 0 := funext fun a => by fin_cases a <;> rfl

/-- The head vector of relation `r`, computed from the row-`r` slices of the weights and the bias, is row `r` of the tile. -/
theorem head_row (x0 : FVec Ideal S8192x64 .f32) (x1 : IVec S8192x1 32) (x2 : FVec Ideal S4x64x6 .f32) (x3 : FVec Ideal S4x6 .f32)
    (r : Fin 4) (w : FVec Ideal S1x64x6 .f32) (bb : FVec Ideal S1x6 .f32)
    (hw : ∀ (k : Fin 64) (q : Fin 6), w (ix3 (0 : Fin 1) k q) = x2 (ix3 r k q))
    (hb : ∀ q : Fin 6, bb (ix2 (0 : Fin 1) q) = x3 (ix2 r q)) (n : Fin 8192) :
    headRow (F := Ideal) (k0_pay4 x0) (k0_pay5 x1) w bb (ix1 n) = tile x0 x1 x2 x3 (ix2 r n) := by
  rw [headRow_apply]
  unfold tile
  refine Finset.sum_congr rfl fun q _ => ?_
  rw [mask_at, hb]
  refine congrArg (fun s => (s + x3 (ix2 r q)) * ind (x1 (ix2 n (0 : Fin 1))) q) ?_
  refine Finset.sum_congr rfl fun k _ => ?_
  rw [hw]
  rfl

/-- A one-row block [1, 8192] of a vector over the rows reads (0, n) at n. -/
theorem row_block (v : FVec Ideal S8192 .f32) (n : Fin 8192) :
    shapeCast S1x8192 v shapeCasts_S8192_S1x8192 (ix2 (0 : Fin 1) n) = v (ix1 n) :=
  shapeCast_apply v shapeCasts_S8192_S1x8192 (ix2 (0 : Fin 1) n) (ix1 n)
    (by rewrite [Shape.rowMajor_val_one, Shape.rowMajor_val_two]; show n.val = 0 * 8192 + n.val; omega)

/-- An index of a one-row piece is (0, n). -/
theorem piece_idx (x : S1x8192.Idx) : x = ix2 (0 : Fin 1) (x 1) := by
  funext a
  match a with
  | ⟨0, _⟩ => exact Fin.ext (by have h : (x 0).val < 1 := (x 0).isLt; show (x 0).val = 0; omega)
  | ⟨1, _⟩ => rfl

/-- Row `r`'s store, through the rectangle at (r, 0), puts (0, n) at (r, n). -/
theorem piece_emb (r : Fin 4) (inb : ∀ a, (![r.val, 0] : Fin 2 → Nat) a + S1x8192.size a ≤ S4x8192.size a) (n : Fin 8192) :
    (Rect.unit (s := S4x8192) ![r.val, 0] S1x8192.size inb).emb (ix2 (0 : Fin 1) n) = ix2 r n := by
  funext a
  match a with
  | ⟨0, _⟩ => exact Fin.ext (by show r.val + 1 * 0 = r.val; omega)
  | ⟨1, _⟩ => exact Fin.ext (by show 0 + 1 * n.val = n.val; omega)

/-- A load of row `r` of the transposed weights reads (0, k, q) at (r, k, q). -/
theorem ld_w (x2 : Vec Ideal S4x64x6 .f32) (r : Fin 4)
    (inb : ∀ a, (![r.val, 0, 0] : Fin 3 → Nat) a + S1x64x6.size a ≤ S4x64x6.size a) (k : Fin 64) (q : Fin 6) :
    View.ld x2 (Rect.unit (s := S4x64x6) ![r.val, 0, 0] S1x64x6.size inb) (ix3 (0 : Fin 1) k q) = x2 (ix3 r k q) := by
  show x2 _ = x2 _
  congr 1
  funext a
  match a with
  | ⟨0, _⟩ => exact Fin.ext (by show r.val + 1 * 0 = r.val; omega)
  | ⟨1, _⟩ => exact Fin.ext (by show 0 + 1 * k.val = k.val; omega)
  | ⟨2, _⟩ => exact Fin.ext (by show 0 + 1 * q.val = q.val; omega)

/-- A load of row `r` of the bias reads (0, q) at (r, q). -/
theorem ld_b (x3 : Vec Ideal S4x6 .f32) (r : Fin 4)
    (inb : ∀ a, (![r.val, 0] : Fin 2 → Nat) a + S1x6.size a ≤ S4x6.size a) (q : Fin 6) :
    View.ld x3 (Rect.unit (s := S4x6) ![r.val, 0] S1x6.size inb) (ix2 (0 : Fin 1) q) = x3 (ix2 r q) := by
  show x3 _ = x3 _
  congr 1
  funext a
  match a with
  | ⟨0, _⟩ => exact Fin.ext (by show r.val + 1 * 0 = r.val; omega)
  | ⟨1, _⟩ => exact Fin.ext (by show 0 + 1 * q.val = q.val; omega)

/-- One store's payload, at a piece index, is the tile at the index the store's rectangle puts it. -/
theorem piece_row (x0 : FVec Ideal S8192x64 .f32) (x1 : IVec S8192x1 32) (x2 : FVec Ideal S4x64x6 .f32) (x3 : FVec Ideal S4x6 .f32)
    (r : Fin 4) (inbW : ∀ a, (![r.val, 0, 0] : Fin 3 → Nat) a + S1x64x6.size a ≤ S4x64x6.size a)
    (inbB : ∀ a, (![r.val, 0] : Fin 2 → Nat) a + S1x6.size a ≤ S4x6.size a)
    (inbO : ∀ a, (![r.val, 0] : Fin 2 → Nat) a + S1x8192.size a ≤ S4x8192.size a) (x : S1x8192.Idx) :
    shapeCast S1x8192 (headRow (F := Ideal) (k0_pay4 x0) (k0_pay5 x1)
        (View.ld x2 (Rect.unit (s := S4x64x6) ![r.val, 0, 0] S1x64x6.size inbW))
        (View.ld x3 (Rect.unit (s := S4x6) ![r.val, 0] S1x6.size inbB))) shapeCasts_S8192_S1x8192 x
      = tile x0 x1 x2 x3 ((Rect.unit (s := S4x8192) ![r.val, 0] S1x8192.size inbO).emb x) := by
  obtain ⟨n, rfl⟩ : ∃ n : Fin 8192, x = ix2 (0 : Fin 1) n := ⟨x 1, piece_idx x⟩
  rw [piece_emb, row_block]
  exact head_row x0 x1 x2 x3 r _ _ (ld_w x2 r inbW) (ld_b x3 r inbB) n

/-- THE OUTPUT TILE: the body's four stores leave `tile` of the input blocks. -/
theorem out_eq (x0 : FVec Ideal S8192x64 .f32) (x1 : IVec S8192x1 32) (x2 : FVec Ideal S4x64x6 .f32) (x3 : FVec Ideal S4x6 .f32) :
    out0_4 (F := Ideal) x0 x1 x2 x3 = tile x0 x1 x2 x3 := by
  funext y
  unfold out0_4
  simp only [View.ld_unit_zero (S := S8192x64) hz2, View.ld_unit_zero (S := S8192x1) hz2]
  rw [pay3_eq, pay2_eq, pay1_eq, pay6_eq]
  refine View.canon_apply_of_pieces (Val := Elt Ideal) (e := .f32) (tile (R := 8192) x0 x1 x2 x3) _ ?_ y (cover0_4 _ _ _ _ y)
  intro p hp x
  simp only [List.mem_cons, List.not_mem_nil, or_false] at hp
  rcases hp with rfl | rfl | rfl | rfl
  · exact piece_row x0 x1 x2 x3 3 inb_S4x64x6_S1x64x6_3_0_0 inb_S4x6_S1x6_3_0 inb_S4x8192_S1x8192_3_0 x
  · exact piece_row x0 x1 x2 x3 2 inb_S4x64x6_S1x64x6_2_0_0 inb_S4x6_S1x6_2_0 inb_S4x8192_S1x8192_2_0 x
  · exact piece_row x0 x1 x2 x3 1 inb_S4x64x6_S1x64x6_1_0_0 inb_S4x6_S1x6_1_0 inb_S4x8192_S1x8192_1_0 x
  · exact piece_row x0 x1 x2 x3 0 inb_S4x64x6_S1x64x6_0_0_0 inb_S4x6_S1x6_0_0 inb_S4x8192_S1x8192_0_0 x

end Cert.KernelIdeal.TileValue

end
-- ==== Proof.KernelArray.lean ====
/-
  From the kernel's tiles to its whole output array.

  The grid has 512 points; point `t` reads rows `[8192·t, 8192·(t+1))` of `z` and of the pair-index column, the whole
  transposed weights and the whole bias, and writes columns `[8192·t, 8192·(t+1))` of the [4, N] output.  What a point
  writes back is the `tile` function of its input blocks (TileValue), and `tile` only ever looks at row `n` of its first two
  arguments for column `n` of its result: so point `t`'s block is block `t` of the SAME function `tile` of the whole arrays.
  The 512 blocks cover the output, hence the output array after the run is `tile` of the arrays the region found.
-/
import proofs.«424766_j76897094467881_1_alg».proof.Proof.Gen.KernelIdeal.Value
import proofs.«424766_j76897094467881_1_alg».proof.Proof.TileValue

set_option maxRecDepth 16384

noncomputable section

open scoped BigOperators

namespace Cert.KernelIdeal.KernelArray

open Cert.KernelIdeal Cert.KernelIdeal.Gen Cert.KernelIdeal.TileValue Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps, decided over the grid: the z and pair-index blocks move down the rows with the point, the
    output block along the columns; the weights' and the bias's block is always the whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- A tile of blocks that are the rows from `8192·T` on of the first two arrays, and the whole of the last two, is the
    tile of the whole arrays at the columns from `8192·T` on. -/
theorem tile_block (zA : S4194304x64.Idx → EReal) (iA : S4194304x1.Idx → BitVec 32) (wA : S4x64x6.Idx → EReal) (bA : S4x6.Idx → EReal)
    (x0 : S8192x64.Idx → EReal) (x1 : S8192x1.Idx → BitVec 32) (x2 : S4x64x6.Idx → EReal) (x3 : S4x6.Idx → EReal)
    (r : Fin 4) (n : Fin 8192) (N : Fin 4194304)
    (h0 : ∀ k : Fin 64, x0 (ix2 n k) = zA (ix2 N k)) (h1 : x1 (ix2 n (0 : Fin 1)) = iA (ix2 N (0 : Fin 1)))
    (h2 : ∀ (k : Fin 64) (q : Fin 6), x2 (ix3 r k q) = wA (ix3 r k q)) (h3 : ∀ q : Fin 6, x3 (ix2 r q) = bA (ix2 r q)) :
    tile (R := 8192) x0 x1 x2 x3 (ix2 r n) = tile (R := 4194304) zA iA wA bA (ix2 r N) := by
  show ∑ q : Fin 6, ((∑ k : Fin 64, x0 (ix2 n k) * x2 (ix3 r k q)) + x3 (ix2 r q)) * ind (x1 (ix2 n (0 : Fin 1))) q
    = ∑ q : Fin 6, ((∑ k : Fin 64, zA (ix2 N k) * wA (ix3 r k q)) + bA (ix2 r q)) * ind (iA (ix2 N (0 : Fin 1))) q
  rw [h1]
  refine Finset.sum_congr rfl fun q _ => ?_
  rw [h3]
  refine congrArg (fun s => (s + bA (ix2 r q)) * ind (iA (ix2 N (0 : Fin 1))) q) ?_
  refine Finset.sum_congr rfl fun k _ => ?_
  rw [h0, h2]

/-- WHAT POINT `t` WRITES BACK is block `t` of `tile` of the arrays as the region finds them. -/
theorem flushed_eq (c : Dev nD) (t : Fin cfg0.N) :
    (dats m 0 c).flushed 4 t = ((cfg0.win 4).blk t).view.read (Elt Ideal)
      (tile (R := 4194304) (V m c main_arg0) (V m c main_v0) (V m c main_v1) (V m c main_arg2)) := by
  rw [Value.flushed4]
  refine (congrArg ((cfg0.win 4).cut (grid0.coords t)) (out_eq (iblk m c 0 t) (iblk m c 1 t) (iblk m c 2 t) (iblk m c 3 t))).trans ?_
  obtain ⟨e00, e01, e10, e11, e20, e21, e22, e30, e31, e40, e41⟩ := idx_facts t
  have ht : t.val < 512 := t.isLt
  funext y
  obtain ⟨r, n, rfl⟩ : ∃ (r : Fin 4) (n : Fin 8192), y = ix2 r n := ⟨y 0, y 1, eq_ix2 y⟩
  have hN : t.val * 8192 + n.val < 4194304 := by have := n.isLt; omega
  have hemb : ((cfg0.win 4).blk t).view.emb (ix2 r n) = ix2 r (⟨t.val * 8192 + n.val, hN⟩ : Fin 4194304) := by
    funext a; apply Fin.ext
    match a with
    | ⟨0, _⟩ => show win0_4.index t (0 : Fin 2) * 4 + 1 * r.val = r.val; omega
    | ⟨1, _⟩ => show win0_4.index t (1 : Fin 2) * 8192 + 1 * n.val = t.val * 8192 + n.val; omega
  show tile (R := 8192) (iblk m c 0 t) (iblk m c 1 t) (iblk m c 2 t) (iblk m c 3 t) (ix2 r n)
    = tile (R := 4194304) (V m c main_arg0) (V m c main_v0) (V m c main_v1) (V m c main_arg2) (((cfg0.win 4).blk t).view.emb (ix2 r n))
  rw [hemb]
  refine tile_block _ _ _ _ _ _ _ _ r n ⟨t.val * 8192 + n.val, hN⟩ ?_ ?_ ?_ ?_
  · intro k
    show V m c main_arg0 (((cfg0.win 0).blk t).view.emb (ix2 n k)) = V m c main_arg0 _
    congr 1
    funext a; apply Fin.ext
    match a with
    | ⟨0, _⟩ => show win0_0.index t (0 : Fin 2) * 8192 + 1 * n.val = t.val * 8192 + n.val; omega
    | ⟨1, _⟩ => show win0_0.index t (1 : Fin 2) * 64 + 1 * k.val = k.val; omega
  · show V m c main_v0 (((cfg0.win 1).blk t).view.emb (ix2 n (0 : Fin 1))) = V m c main_v0 _
    congr 1
    funext a; apply Fin.ext
    match a with
    | ⟨0, _⟩ => show win0_1.index t (0 : Fin 2) * 8192 + 1 * n.val = t.val * 8192 + n.val; omega
    | ⟨1, _⟩ => show win0_1.index t (1 : Fin 2) * 1 + 1 * 0 = 0; omega
  · intro k q
    show V m c main_v1 (((cfg0.win 2).blk t).view.emb (ix3 r k q)) = V m c main_v1 _
    congr 1
    funext a; apply Fin.ext
    match a with
    | ⟨0, _⟩ => show win0_2.index t (0 : Fin 3) * 4 + 1 * r.val = r.val; omega
    | ⟨1, _⟩ => show win0_2.index t (1 : Fin 3) * 64 + 1 * k.val = k.val; omega
    | ⟨2, _⟩ => show win0_2.index t (2 : Fin 3) * 6 + 1 * q.val = q.val; omega
  · intro q
    show V m c main_arg2 (((cfg0.win 3).blk t).view.emb (ix2 r q)) = V m c main_arg2 _
    congr 1
    funext a; apply Fin.ext
    match a with
    | ⟨0, _⟩ => show win0_3.index t (0 : Fin 2) * 4 + 1 * r.val = r.val; omega
    | ⟨1, _⟩ => show win0_3.index t (1 : Fin 2) * 6 + 1 * q.val = q.val; omega

/-- An index of the output array is in point `t`'s block iff each coordinate is in the block's range on its axis. -/
theorem mem_blk (t : Fin cfg0.N) (i : S4x4194304.Idx) :
    i ∈ ((cfg0.win 4).blk t).view.set ↔ ∀ a : Fin 2, win0_4.index t a * S4x8192.size a ≤ (i a).val ∧ (i a).val < win0_4.index t a * S4x8192.size a + S4x8192.size a := by
  show i ∈ ((View.whole main_v2).slice (win0_4.rect t)).set ↔ _
  rw [View.set_slice_whole, Rect.mem_set_unit]
  exact Iff.rfl

/-- Every index of the output is in the block of the point its column falls in. -/
theorem cover (i : S4x4194304.Idx) : ∃ t : Fin cfg0.N, (cfg0.win 4).flush t = true ∧ i ∈ ((cfg0.win 4).blk t).view.set := by
  have hi0 : (i 0).val < 4 := (i 0).isLt
  have hi1 : (i 1).val < 4194304 := (i 1).isLt
  refine ⟨(⟨(i 1).val / 8192, by show (i 1).val / 8192 < 512; omega⟩ : Fin cfg0.N), flush0_4 _, ?_⟩
  rw [mem_blk]
  obtain ⟨-, -, -, -, -, -, -, -, -, e40, e41⟩ := idx_facts (⟨(i 1).val / 8192, by show (i 1).val / 8192 < 512; omega⟩ : Fin cfg0.N)
  intro a
  match a with
  | ⟨0, _⟩ =>
    show win0_4.index _ (0 : Fin 2) * 4 ≤ (i 0).val ∧ (i 0).val < win0_4.index _ (0 : Fin 2) * 4 + 4
    rw [e40]; omega
  | ⟨1, _⟩ =>
    show win0_4.index _ (1 : Fin 2) * 8192 ≤ (i 1).val ∧ (i 1).val < win0_4.index _ (1 : Fin 2) * 8192 + 8192
    rw [e41]; show (i 1).val / 8192 * 8192 ≤ (i 1).val ∧ (i 1).val < (i 1).val / 8192 * 8192 + 8192; omega

/-- THE OUTPUT ARRAY after the run: `tile` of the arrays the region found. -/
theorem final (c : Dev nD) : (dats m 0 c).arrAt 4 cfg0.N
    = tile (R := 4194304) (V m c main_arg0) (V m c main_v0) (V m c main_v1) (V m c main_arg2) :=
  (dats m 0 c).arrAt_eq_of_cover 4 _ (fun t _ => flushed_eq m c t) cover

end Cert.KernelIdeal.KernelArray

end
-- ==== Proof.KernelRun.lean ====
/-
  The kernel's run, with its result named as the specification.

  Before the region the host reshapes the pair indices [N] into a column [N, 1] and transposes the weights [4, 6, 64]
  into [4, 64, 6]; the region leaves `tile` of (z, that column, those transposed weights, the bias) in the output
  (KernelArray).  Reading the column at (n, 0) as `pair_idx[n]` and the transposed weights at (r, k, q) as `W[r, q, k]`,
  the tile at (r, n) is `∑ q, ((∑ k, z[n,k] · W[r,q,k]) + b[r,q]) · [pair_idx[n] = q]`, which for an admissible pair index
  is the one summand at `q = pair_idx[n]` (PairSelect): the specification `selected`, up to the order of each product.
-/
import proofs.«424766_j76897094467881_1_alg».proof.Proof.KernelArray
import proofs.«424766_j76897094467881_1_alg».proof.Proof.PairSelect
import Idealize.ShloMosaic.Lib.StableHlo.Run

set_option maxRecDepth 16384

noncomputable section

open scoped BigOperators

namespace Cert.KernelIdeal.KernelRun

open Cert.KernelIdeal Cert.KernelIdeal.Gen Cert.KernelIdeal.TileValue Cert.KernelIdeal.KernelArray Cert.PairSelect
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The region finds the pair indices as the host's reshape of the argument into a column. -/
theorem V_column (c : Dev nD) : (V m c main_v0 : S4194304x1.Idx → BitVec 32)
    = shapeCast S4194304x1 (m ((c : Thread nD τ).loc main_arg3)) shapeCasts_S4194304_S4194304x1 := by
  dsimp only [Gen.V, Gen.hostOps0]; after_results <;> rfl

/-- The region finds the weights as the host's transpose of the argument. -/
theorem V_transposed (c : Dev nD) : (V m c main_v1 : S4x64x6.Idx → EReal)
    = transpose S4x64x6 [0, 2, 1] (m ((c : Thread nD τ).loc main_arg1)) transposes_S4x6x64_S4x64x6_0_2_1 := by
  dsimp only [Gen.V, Gen.hostOps0]; after_results <;> rfl

/-- The column at (n, 0) is the pair index of row n. -/
theorem column_at (x : S4194304.Idx → BitVec 32) (n : Fin 4194304) :
    shapeCast S4194304x1 x shapeCasts_S4194304_S4194304x1 (ix2 n (0 : Fin 1)) = x (ix1 n) :=
  shapeCast_apply x shapeCasts_S4194304_S4194304x1 (ix2 n (0 : Fin 1)) (ix1 n)
    (by rewrite [Shape.rowMajor_val_one, Shape.rowMajor_val_two]; show n.val = n.val * 1 + 0; omega)

/-- The transposed weights at (r, k, q) are the weights at (r, q, k). -/
theorem transposed_at (x : S4x6x64.Idx → EReal) (r : Fin 4) (k : Fin 64) (q : Fin 6) :
    transpose S4x64x6 [0, 2, 1] x transposes_S4x6x64_S4x64x6_0_2_1 (ix3 r k q) = x (ix3 r q k) :=
  transpose_apply [0, 2, 1] x transposes_S4x6x64_S4x64x6_0_2_1 (ix3 r k q) (ix3 r q k) (fun b => match b with
    | ⟨0, _⟩ => rfl
    | ⟨1, _⟩ => rfl
    | ⟨2, _⟩ => rfl)

/-- THE TILE FUNCTION OF THE REGION'S ARRAYS IS THE SPECIFICATION, for admissible pair indices. -/
theorem tile_eq_selected (z : S4194304x64.Idx → EReal) (W : S4x6x64.Idx → EReal) (b : S4x6.Idx → EReal) (idx : S4194304.Idx → BitVec 32)
    (hr : ∀ n : Fin 4194304, InRange (idx (ix1 n)))
    (iA : S4194304x1.Idx → BitVec 32) (wA : S4x64x6.Idx → EReal)
    (hi : ∀ n : Fin 4194304, iA (ix2 n (0 : Fin 1)) = idx (ix1 n))
    (hw : ∀ (r : Fin 4) (k : Fin 64) (q : Fin 6), wA (ix3 r k q) = W (ix3 r q k)) :
    tile (R := 4194304) z iA wA b = selected z W b idx := by
  funext i
  obtain ⟨r, n, rfl⟩ : ∃ (r : Fin 4) (n : Fin 4194304), i = ix2 r n := ⟨i 0, i 1, eq_ix2 i⟩
  rw [selected_apply]
  show ∑ q : Fin 6, ((∑ k : Fin 64, z (ix2 n k) * wA (ix3 r k q)) + b (ix2 r q)) * ind (iA (ix2 n (0 : Fin 1))) q = _
  rw [hi]
  refine (sum_indicator (fun q => (∑ k : Fin 64, z (ix2 n k) * wA (ix3 r k q)) + b (ix2 r q)) _ (hr n)).trans ?_
  unfold selectedAt
  refine congrArg (fun s => s + b (ix2 r (pos (idx (ix1 n))))) ?_
  refine Finset.sum_congr rfl fun k _ => ?_
  rw [hw, mul_comm]

/-- THE KERNEL'S RUN: under admissible pair indices every weakly fair execution ends with the output at the
    specification and the arguments unchanged. -/
theorem run (hr : ∀ (c : Dev nD) (n : Fin 4194304), InRange (m ((c : Thread nD τ).loc main_arg3) (ix1 n))) :
    θ_run defs (onTc (τ := τ) (main (F := Ideal))) ⟨m, fun _ => 0, ρ⟩ fun r => ∀ c : Dev nD,
      r.2.mem ((c : Thread nD τ).loc main_v2)
          = selected (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      rw [V_main_arg0, V_main_arg2]
      exact tile_eq_selected _ _ _ _ (hr c) _ _
        (fun n => by rw [V_column]; exact column_at _ n)
        (fun r k q => by rw [V_transposed]; exact transposed_at _ r k q))), (h c).2⟩)
    (Value.run_blocks m ρ)

end Cert.KernelIdeal.KernelRun

end
-- ==== Proof.HostRun.lean ====
/-
  The reference program's run, read back in four stretches.

  The reference is a straight line of 29 host operations: the 24 heads computed densely
  (`logits[r,p,n] = (∑ k, W[r,p,k] · z[n,k]) + b[r,p]`), the pair indices wrapped as jnp wraps a negative index
  (`i < 0 ↦ i + 6`), and jnp's `take_along_axis` along the pair axis: a gather at the wrapped index, kept where that
  index lies in `[0, 5]` and replaced by the fill value elsewhere.  Its run is read here stretch by stretch — the
  dense heads and the broadcast index; the wrapped index; the guarded gather; the final reshape — each stretch over an
  ARBITRARY prior valuation of the buffers, so that no stretch's term contains an earlier stretch's, and the four
  results are composed into `refValue`, the reference's result as a function of its four arguments.
-/
import proofs.«424766_j76897094467881_1_alg».proof.Proof.Gen.ReferenceIdeal
import Idealize.ShloMosaic.Lib.StableHlo.Run
import Idealize.ShloMosaic.Lib.Pipeline.Frame

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The four stretches of @main -/

/-- The dense heads and the pair indices laid along the row axis (operations 1–5). -/
abbrev opsA : List (HloOp τ sig (Elt F)) :=
  [ binary main_arg1 main_arg0 main_v0 ((fun l r => Host.dotGeneral dot_S4x6x64_S4194304x64_S4x6x4194304_2_1_01_0_n_n none l r) : (⟨S4x6x64, .f32⟩ : BufTy).Contents (Elt F) → (⟨S4194304x64, .f32⟩ : BufTy).Contents (Elt F) → (⟨S4x6x4194304, .f32⟩ : BufTy).Contents (Elt F)),
    unary main_arg2 main_v1 (broadcastInDim S4x6x1 ![0, 1] bcast_S4x6_S4x6x1_0_1 : (⟨S4x6, .f32⟩ : BufTy).Contents (Elt F) → (⟨S4x6x1, .f32⟩ : BufTy).Contents (Elt F)),
    unary main_v1 main_v2 (broadcastInDim S4x6x4194304 ![0, 1, 2] bcast_S4x6x1_S4x6x4194304_0_1_2 : (⟨S4x6x1, .f32⟩ : BufTy).Contents (Elt F) → (⟨S4x6x4194304, .f32⟩ : BufTy).Contents (Elt F)),
    binary main_v0 main_v2 main_v3 (addf : (⟨S4x6x4194304, .f32⟩ : BufTy).Contents (Elt F) → (⟨S4x6x4194304, .f32⟩ : BufTy).Contents (Elt F) → (⟨S4x6x4194304, .f32⟩ : BufTy).Contents (Elt F)),
    unary main_arg3 main_v4 (broadcastInDim S1x1x4194304 ![2] bcast_S4194304_S1x1x4194304_2 : (⟨S4194304, .i32⟩ : BufTy).Contents (Elt F) → (⟨S1x1x4194304, .i32⟩ : BufTy).Contents (Elt F)) ]

/-- jnp's wrap of a negative index, then the index as a column of start indices (operations 6–13). -/
abbrev opsB : List (HloOp τ sig (Elt F)) :=
  [ nullary main_call0_c ((constantI S_ 32 0#32) : (⟨S_, .i32⟩ : BufTy).Contents (Elt F)),
    unary main_call0_c main_call0_v0 ((broadcastInDim S1x1x4194304 ![] bcast_S_S1x1x4194304) : (⟨S_, .i32⟩ : BufTy).Contents (Elt F) → (⟨S1x1x4194304, .i32⟩ : BufTy).Contents (Elt F)),
    binary main_v4 main_call0_v0 main_call0_v1 ((cmpi .slt) : (⟨S1x1x4194304, .i32⟩ : BufTy).Contents (Elt F) → (⟨S1x1x4194304, .i32⟩ : BufTy).Contents (Elt F) → (⟨S1x1x4194304, .i1⟩ : BufTy).Contents (Elt F)),
    nullary main_call0_c_0 ((constantI S_ 32 6#32) : (⟨S_, .i32⟩ : BufTy).Contents (Elt F)),
    unary main_call0_c_0 main_call0_v2 ((broadcastInDim S1x1x4194304 ![] bcast_S_S1x1x4194304) : (⟨S_, .i32⟩ : BufTy).Contents (Elt F) → (⟨S1x1x4194304, .i32⟩ : BufTy).Contents (Elt F)),
    binary main_v4 main_call0_v2 main_call0_v3 (addi : (⟨S1x1x4194304, .i32⟩ : BufTy).Contents (Elt F) → (⟨S1x1x4194304, .i32⟩ : BufTy).Contents (Elt F) → (⟨S1x1x4194304, .i32⟩ : BufTy).Contents (Elt F)),
    ternary main_call0_v1 main_call0_v3 main_v4 main_call0_v4 (select : (⟨S1x1x4194304, .i1⟩ : BufTy).Contents (Elt F) → (⟨S1x1x4194304, .i32⟩ : BufTy).Contents (Elt F) → (⟨S1x1x4194304, .i32⟩ : BufTy).Contents (Elt F) → (⟨S1x1x4194304, .i32⟩ : BufTy).Contents (Elt F)),
    reshape main_call0_v4 main_call0_v5 rfl shapeCasts_S1x1x4194304_S1x4194304x1 ]

/-- The range test, the gather and the select between the gathered value and the fill value (operations 14–28). -/
abbrev opsC : List (HloOp τ sig (Elt F)) :=
  [ nullary main_call0_c_1 ((constantI S1 32 5#32) : (⟨S1, .i32⟩ : BufTy).Contents (Elt F)),
    nullary main_call0_c_2 ((constantI S_ 32 0#32) : (⟨S_, .i32⟩ : BufTy).Contents (Elt F)),
    unary main_call0_c_2 main_call0_v6 ((broadcastInDim S1x4194304x1 ![] bcast_S_S1x4194304x1) : (⟨S_, .i32⟩ : BufTy).Contents (Elt F) → (⟨S1x4194304x1, .i32⟩ : BufTy).Contents (Elt F)),
    binary main_call0_v5 main_call0_v6 main_call0_v7 ((cmpi .sge) : (⟨S1x4194304x1, .i32⟩ : BufTy).Contents (Elt F) → (⟨S1x4194304x1, .i32⟩ : BufTy).Contents (Elt F) → (⟨S1x4194304x1, .i1⟩ : BufTy).Contents (Elt F)),
    unary main_call0_c_1 main_call0_v8 ((broadcastInDim S1x1x1 ![2] bcast_S1_S1x1x1_2) : (⟨S1, .i32⟩ : BufTy).Contents (Elt F) → (⟨S1x1x1, .i32⟩ : BufTy).Contents (Elt F)),
    unary main_call0_v8 main_call0_v9 ((broadcastInDim S1x4194304x1 ![0, 1, 2] bcast_S1x1x1_S1x4194304x1_0_1_2) : (⟨S1x1x1, .i32⟩ : BufTy).Contents (Elt F) → (⟨S1x4194304x1, .i32⟩ : BufTy).Contents (Elt F)),
    binary main_call0_v5 main_call0_v9 main_call0_v10 ((cmpi .sle) : (⟨S1x4194304x1, .i32⟩ : BufTy).Contents (Elt F) → (⟨S1x4194304x1, .i32⟩ : BufTy).Contents (Elt F) → (⟨S1x4194304x1, .i1⟩ : BufTy).Contents (Elt F)),
    binary main_call0_v7 main_call0_v10 main_call0_v11 (andi : (⟨S1x4194304x1, .i1⟩ : BufTy).Contents (Elt F) → (⟨S1x4194304x1, .i1⟩ : BufTy).Contents (Elt F) → (⟨S1x4194304x1, .i1⟩ : BufTy).Contents (Elt F)),
    nullary main_call0_c_3 ((constantI S_ 1 1#1) : (⟨S_, .i1⟩ : BufTy).Contents (Elt F)),
    binary main_call0_v11 main_call0_c_3 main_call0_v12 ((fun x v => Host.reduce IntOp.andi x v reducesTo_S1x4194304x1_S1x4194304_d2 h_S_) : (⟨S1x4194304x1, .i1⟩ : BufTy).Contents (Elt F) → (⟨S_, .i1⟩ : BufTy).Contents (Elt F) → (⟨S1x4194304, .i1⟩ : BufTy).Contents (Elt F)),
    binary main_v3 main_call0_v5 main_call0_v13 ((fun x i => Host.gather gather_S4x6x4194304_S1x4194304x1_S4x1x4194304_0_1_2_1_1_2_411 x i) : (⟨S4x6x4194304, .f32⟩ : BufTy).Contents (Elt F) → (⟨S1x4194304x1, .i32⟩ : BufTy).Contents (Elt F) → (⟨S4x1x4194304, .f32⟩ : BufTy).Contents (Elt F)),
    unary main_call0_v12 main_call0_v14 ((broadcastInDim S4x1x4194304 ![1, 2] bcast_S1x4194304_S4x1x4194304_1_2) : (⟨S1x4194304, .i1⟩ : BufTy).Contents (Elt F) → (⟨S4x1x4194304, .i1⟩ : BufTy).Contents (Elt F)),
    nullary main_call0_cst ((constant S_ .f32 0x7FC00000#32) : (⟨S_, .f32⟩ : BufTy).Contents (Elt F)),
    unary main_call0_cst main_call0_v15 ((broadcastInDim S4x1x4194304 ![] bcast_S_S4x1x4194304) : (⟨S_, .f32⟩ : BufTy).Contents (Elt F) → (⟨S4x1x4194304, .f32⟩ : BufTy).Contents (Elt F)),
    ternary main_call0_v14 main_call0_v13 main_call0_v15 main_v5 (select : (⟨S4x1x4194304, .i1⟩ : BufTy).Contents (Elt F) → (⟨S4x1x4194304, .f32⟩ : BufTy).Contents (Elt F) → (⟨S4x1x4194304, .f32⟩ : BufTy).Contents (Elt F) → (⟨S4x1x4194304, .f32⟩ : BufTy).Contents (Elt F)) ]

/-- The unit pair axis dropped (operation 29). -/
abbrev opsD : List (HloOp τ sig (Elt F)) :=
  [ reshape main_v5 main_v6 rfl shapeCasts_S4x1x4194304_S4x4194304 ]

/-- @main's 29 operations, in order (the called function's operations stand in the call's place, each at its own buffer). -/
abbrev ops : List (HloOp τ sig (Elt F)) :=
  [ binary main_arg1 main_arg0 main_v0 ((fun l r => Host.dotGeneral dot_S4x6x64_S4194304x64_S4x6x4194304_2_1_01_0_n_n none l r) : (⟨S4x6x64, .f32⟩ : BufTy).Contents (Elt F) → (⟨S4194304x64, .f32⟩ : BufTy).Contents (Elt F) → (⟨S4x6x4194304, .f32⟩ : BufTy).Contents (Elt F)),
    unary main_arg2 main_v1 (broadcastInDim S4x6x1 ![0, 1] bcast_S4x6_S4x6x1_0_1 : (⟨S4x6, .f32⟩ : BufTy).Contents (Elt F) → (⟨S4x6x1, .f32⟩ : BufTy).Contents (Elt F)),
    unary main_v1 main_v2 (broadcastInDim S4x6x4194304 ![0, 1, 2] bcast_S4x6x1_S4x6x4194304_0_1_2 : (⟨S4x6x1, .f32⟩ : BufTy).Contents (Elt F) → (⟨S4x6x4194304, .f32⟩ : BufTy).Contents (Elt F)),
    binary main_v0 main_v2 main_v3 (addf : (⟨S4x6x4194304, .f32⟩ : BufTy).Contents (Elt F) → (⟨S4x6x4194304, .f32⟩ : BufTy).Contents (Elt F) → (⟨S4x6x4194304, .f32⟩ : BufTy).Contents (Elt F)),
    unary main_arg3 main_v4 (broadcastInDim S1x1x4194304 ![2] bcast_S4194304_S1x1x4194304_2 : (⟨S4194304, .i32⟩ : BufTy).Contents (Elt F) → (⟨S1x1x4194304, .i32⟩ : BufTy).Contents (Elt F)),
    nullary main_call0_c ((constantI S_ 32 0#32) : (⟨S_, .i32⟩ : BufTy).Contents (Elt F)),
    unary main_call0_c main_call0_v0 ((broadcastInDim S1x1x4194304 ![] bcast_S_S1x1x4194304) : (⟨S_, .i32⟩ : BufTy).Contents (Elt F) → (⟨S1x1x4194304, .i32⟩ : BufTy).Contents (Elt F)),
    binary main_v4 main_call0_v0 main_call0_v1 ((cmpi .slt) : (⟨S1x1x4194304, .i32⟩ : BufTy).Contents (Elt F) → (⟨S1x1x4194304, .i32⟩ : BufTy).Contents (Elt F) → (⟨S1x1x4194304, .i1⟩ : BufTy).Contents (Elt F)),
    nullary main_call0_c_0 ((constantI S_ 32 6#32) : (⟨S_, .i32⟩ : BufTy).Contents (Elt F)),
    unary main_call0_c_0 main_call0_v2 ((broadcastInDim S1x1x4194304 ![] bcast_S_S1x1x4194304) : (⟨S_, .i32⟩ : BufTy).Contents (Elt F) → (⟨S1x1x4194304, .i32⟩ : BufTy).Contents (Elt F)),
    binary main_v4 main_call0_v2 main_call0_v3 (addi : (⟨S1x1x4194304, .i32⟩ : BufTy).Contents (Elt F) → (⟨S1x1x4194304, .i32⟩ : BufTy).Contents (Elt F) → (⟨S1x1x4194304, .i32⟩ : BufTy).Contents (Elt F)),
    ternary main_call0_v1 main_call0_v3 main_v4 main_call0_v4 (select : (⟨S1x1x4194304, .i1⟩ : BufTy).Contents (Elt F) → (⟨S1x1x4194304, .i32⟩ : BufTy).Contents (Elt F) → (⟨S1x1x4194304, .i32⟩ : BufTy).Contents (Elt F) → (⟨S1x1x4194304, .i32⟩ : BufTy).Contents (Elt F)),
    reshape main_call0_v4 main_call0_v5 rfl shapeCasts_S1x1x4194304_S1x4194304x1,
    nullary main_call0_c_1 ((constantI S1 32 5#32) : (⟨S1, .i32⟩ : BufTy).Contents (Elt F)),
    nullary main_call0_c_2 ((constantI S_ 32 0#32) : (⟨S_, .i32⟩ : BufTy).Contents (Elt F)),
    unary main_call0_c_2 main_call0_v6 ((broadcastInDim S1x4194304x1 ![] bcast_S_S1x4194304x1) : (⟨S_, .i32⟩ : BufTy).Contents (Elt F) → (⟨S1x4194304x1, .i32⟩ : BufTy).Contents (Elt F)),
    binary main_call0_v5 main_call0_v6 main_call0_v7 ((cmpi .sge) : (⟨S1x4194304x1, .i32⟩ : BufTy).Contents (Elt F) → (⟨S1x4194304x1, .i32⟩ : BufTy).Contents (Elt F) → (⟨S1x4194304x1, .i1⟩ : BufTy).Contents (Elt F)),
    unary main_call0_c_1 main_call0_v8 ((broadcastInDim S1x1x1 ![2] bcast_S1_S1x1x1_2) : (⟨S1, .i32⟩ : BufTy).Contents (Elt F) → (⟨S1x1x1, .i32⟩ : BufTy).Contents (Elt F)),
    unary main_call0_v8 main_call0_v9 ((broadcastInDim S1x4194304x1 ![0, 1, 2] bcast_S1x1x1_S1x4194304x1_0_1_2) : (⟨S1x1x1, .i32⟩ : BufTy).Contents (Elt F) → (⟨S1x4194304x1, .i32⟩ : BufTy).Contents (Elt F)),
    binary main_call0_v5 main_call0_v9 main_call0_v10 ((cmpi .sle) : (⟨S1x4194304x1, .i32⟩ : BufTy).Contents (Elt F) → (⟨S1x4194304x1, .i32⟩ : BufTy).Contents (Elt F) → (⟨S1x4194304x1, .i1⟩ : BufTy).Contents (Elt F)),
    binary main_call0_v7 main_call0_v10 main_call0_v11 (andi : (⟨S1x4194304x1, .i1⟩ : BufTy).Contents (Elt F) → (⟨S1x4194304x1, .i1⟩ : BufTy).Contents (Elt F) → (⟨S1x4194304x1, .i1⟩ : BufTy).Contents (Elt F)),
    nullary main_call0_c_3 ((constantI S_ 1 1#1) : (⟨S_, .i1⟩ : BufTy).Contents (Elt F)),
    binary main_call0_v11 main_call0_c_3 main_call0_v12 ((fun x v => Host.reduce IntOp.andi x v reducesTo_S1x4194304x1_S1x4194304_d2 h_S_) : (⟨S1x4194304x1, .i1⟩ : BufTy).Contents (Elt F) → (⟨S_, .i1⟩ : BufTy).Contents (Elt F) → (⟨S1x4194304, .i1⟩ : BufTy).Contents (Elt F)),
    binary main_v3 main_call0_v5 main_call0_v13 ((fun x i => Host.gather gather_S4x6x4194304_S1x4194304x1_S4x1x4194304_0_1_2_1_1_2_411 x i) : (⟨S4x6x4194304, .f32⟩ : BufTy).Contents (Elt F) → (⟨S1x4194304x1, .i32⟩ : BufTy).Contents (Elt F) → (⟨S4x1x4194304, .f32⟩ : BufTy).Contents (Elt F)),
    unary main_call0_v12 main_call0_v14 ((broadcastInDim S4x1x4194304 ![1, 2] bcast_S1x4194304_S4x1x4194304_1_2) : (⟨S1x4194304, .i1⟩ : BufTy).Contents (Elt F) → (⟨S4x1x4194304, .i1⟩ : BufTy).Contents (Elt F)),
    nullary main_call0_cst ((constant S_ .f32 0x7FC00000#32) : (⟨S_, .f32⟩ : BufTy).Contents (Elt F)),
    unary main_call0_cst main_call0_v15 ((broadcastInDim S4x1x4194304 ![] bcast_S_S4x1x4194304) : (⟨S_, .f32⟩ : BufTy).Contents (Elt F) → (⟨S4x1x4194304, .f32⟩ : BufTy).Contents (Elt F)),
    ternary main_call0_v14 main_call0_v13 main_call0_v15 main_v5 (select : (⟨S4x1x4194304, .i1⟩ : BufTy).Contents (Elt F) → (⟨S4x1x4194304, .f32⟩ : BufTy).Contents (Elt F) → (⟨S4x1x4194304, .f32⟩ : BufTy).Contents (Elt F) → (⟨S4x1x4194304, .f32⟩ : BufTy).Contents (Elt F)),
    reshape main_v5 main_v6 rfl shapeCasts_S4x1x4194304_S4x4194304 ]

/-- The line is its four stretches. -/
theorem ops_split : (ops : List (HloOp τ sig (Elt F))) = opsA ++ (opsB ++ (opsC ++ opsD)) := rfl

attribute [local irreducible] Host.reduce Host.gather in
set_option maxRecDepth 8192 in
/-- @main is that line: the called function's definition unfolded at its call and the call's record at its fields, both
    sides are one chain of host steps once sequencing is reassociated; the reduction and the gather stay folded meanwhile
    (their bodies are folds over the operand's elements, which nothing here needs opened). -/
theorem main_eq (c : Dev nD) : main (F := F) c = seq ops := by
  simp only [main, fn_take_along_axis.body, seq, bind_assoc, pure_bind]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩

/-! ## What each stretch computes -/

/-- The dense heads: `(∑ k, W[r,p,k] · z[n,k]) + b[r,p]` at (r, p, n). -/
def logits (x0 : (⟨S4194304x64, .f32⟩ : BufTy).Contents (Elt F)) (x1 : (⟨S4x6x64, .f32⟩ : BufTy).Contents (Elt F))
    (x2 : (⟨S4x6, .f32⟩ : BufTy).Contents (Elt F)) : (⟨S4x6x4194304, .f32⟩ : BufTy).Contents (Elt F) :=
  addf (Host.dotGeneral dot_S4x6x64_S4194304x64_S4x6x4194304_2_1_01_0_n_n none x1 x0)
    (broadcastInDim S4x6x4194304 ![0, 1, 2] bcast_S4x6x1_S4x6x4194304_0_1_2 (broadcastInDim S4x6x1 ![0, 1] bcast_S4x6_S4x6x1_0_1 x2))

/-- The pair indices along the row axis of a [1, 1, N] array. -/
def laid (x3 : (⟨S4194304, .i32⟩ : BufTy).Contents (Elt F)) : (⟨S1x1x4194304, .i32⟩ : BufTy).Contents (Elt F) :=
  broadcastInDim S1x1x4194304 ![2] bcast_S4194304_S1x1x4194304_2 x3

/-- The wrapped index (`i + 6` where `i < 0`, else `i`), as the [1, N, 1] column of start indices. -/
def wrapped (v4 : (⟨S1x1x4194304, .i32⟩ : BufTy).Contents (Elt F)) : (⟨S1x4194304x1, .i32⟩ : BufTy).Contents (Elt F) :=
  shapeCast _ (select (cmpi .slt v4 (broadcastInDim S1x1x4194304 ![] bcast_S_S1x1x4194304 (constantI S_ 32 0#32)))
    (addi v4 (broadcastInDim S1x1x4194304 ![] bcast_S_S1x1x4194304 (constantI S_ 32 6#32))) v4) shapeCasts_S1x1x4194304_S1x4194304x1

/-- The guarded gather: the heads at the start index where it lies in `[0, 5]`, the fill value elsewhere. -/
def taken (lg : (⟨S4x6x4194304, .f32⟩ : BufTy).Contents (Elt F)) (ix : (⟨S1x4194304x1, .i32⟩ : BufTy).Contents (Elt F)) :
    (⟨S4x1x4194304, .f32⟩ : BufTy).Contents (Elt F) :=
  select (broadcastInDim S4x1x4194304 ![1, 2] bcast_S1x4194304_S4x1x4194304_1_2
      (Host.reduce IntOp.andi (andi (cmpi .sge ix (broadcastInDim S1x4194304x1 ![] bcast_S_S1x4194304x1 (constantI S_ 32 0#32)))
        (cmpi .sle ix (broadcastInDim S1x4194304x1 ![0, 1, 2] bcast_S1x1x1_S1x4194304x1_0_1_2 (broadcastInDim S1x1x1 ![2] bcast_S1_S1x1x1_2 (constantI S1 32 5#32)))))
        (constantI S_ 1 1#1) reducesTo_S1x4194304x1_S1x4194304_d2 h_S_))
    (Host.gather gather_S4x6x4194304_S1x4194304x1_S4x1x4194304_0_1_2_1_1_2_411 lg ix)
    (broadcastInDim S4x1x4194304 ![] bcast_S_S4x1x4194304 (constant S_ .f32 0x7FC00000#32))

/-- The reference's result as a function of its four arguments. -/
def refValue (x0 : (⟨S4194304x64, .f32⟩ : BufTy).Contents (Elt F)) (x1 : (⟨S4x6x64, .f32⟩ : BufTy).Contents (Elt F))
    (x2 : (⟨S4x6, .f32⟩ : BufTy).Contents (Elt F)) (x3 : (⟨S4194304, .i32⟩ : BufTy).Contents (Elt F)) :
    (⟨S4x4194304, .f32⟩ : BufTy).Contents (Elt F) :=
  shapeCast _ (taken (logits x0 x1 x2) (wrapped (laid x3))) shapeCasts_S4x1x4194304_S4x4194304

/-! ## The stretches read back, each over any prior contents -/

variable (W : Valuation τ sig (Elt F))

theorem stretchA_v3 : after (opsA (F := F)) W (Proc.devRef .tc main_v3)
    = logits (W (Proc.devRef .tc main_arg0)) (W (Proc.devRef .tc main_arg1)) (W (Proc.devRef .tc main_arg2)) := by
  after_results <;> rfl

theorem stretchA_v4 : after (opsA (F := F)) W (Proc.devRef .tc main_v4) = laid (W (Proc.devRef .tc main_arg3)) := by
  after_results <;> rfl

theorem stretchB_v5 : after (opsB (F := F)) W (Proc.devRef .tc main_call0_v5) = wrapped (W (Proc.devRef .tc main_v4)) := by
  after_results <;> rfl

theorem stretchB_v3 : after (opsB (F := F)) W (Proc.devRef .tc main_v3) = W (Proc.devRef .tc main_v3) := by
  after_results <;> rfl

theorem stretchC_v5 : after (opsC (F := F)) W (Proc.devRef .tc main_v5)
    = taken (W (Proc.devRef .tc main_v3)) (W (Proc.devRef .tc main_call0_v5)) := by
  after_results <;> rfl

theorem stretchD_v6 : after (opsD (F := F)) W (Proc.devRef .tc main_v6)
    = shapeCast _ (W (Proc.devRef .tc main_v5)) shapeCasts_S4x1x4194304_S4x4194304 := by
  after_results <;> rfl

/-- The whole line's result buffer, from any launch contents. -/
theorem result_v6 : after (ops (F := F)) W (Proc.devRef .tc main_v6)
    = refValue (W (Proc.devRef .tc main_arg0)) (W (Proc.devRef .tc main_arg1)) (W (Proc.devRef .tc main_arg2)) (W (Proc.devRef .tc main_arg3)) := by
  unfold refValue
  rw [ops_split, StableHlo.after_append, StableHlo.after_append, StableHlo.after_append, stretchD_v6, stretchC_v5, stretchB_v3, stretchB_v5,
    stretchA_v3, stretchA_v4]

/-- No operation writes an argument. -/
theorem kept_arg0 : after (ops (F := F)) W (Proc.devRef .tc main_arg0) = W (Proc.devRef .tc main_arg0) := by
  after_results <;> rfl
theorem kept_arg1 : after (ops (F := F)) W (Proc.devRef .tc main_arg1) = W (Proc.devRef .tc main_arg1) := by
  after_results <;> rfl
theorem kept_arg2 : after (ops (F := F)) W (Proc.devRef .tc main_arg2) = W (Proc.devRef .tc main_arg2) := by
  after_results <;> rfl
theorem kept_arg3 : after (ops (F := F)) W (Proc.devRef .tc main_arg3) = W (Proc.devRef .tc main_arg3) := by
  after_results <;> rfl

/-! ## The run -/

/-- On every device, for any float values, from any memory with zero counters: every weakly fair execution of @main
    terminates with the result at `refValue` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = refValue (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (result_v6 _),
      (h c main_arg0).trans (kept_arg0 _),
      (h c main_arg1).trans (kept_arg1 _),
      (h c main_arg2).trans (kept_arg2 _),
      (h c main_arg3).trans (kept_arg3 _)⟩)
    (run_seq scopedRefs_eq scopedSems_eq defs main (fun _ => ops) main_eq (fun _ => ops_sub) m ρ)

end Cert.ReferenceIdeal.HostRun

end
-- ==== Proof.RefGather.lean ====
/-
  The two operations of the reference that read more than one element: jnp's `take_along_axis` gather along the pair
  axis, and the `all` over a unit axis that guards it.

  The gather has the row axis as a batching axis on both sides, the pair axis collapsed and indexed, and the relation axis
  as its one offset axis: result element (r, 0, n) is the operand at (r, s, n), where `s` is the start index at (0, n, 0)
  read signed and clamped into `[0, 5]`.  The guard reduces a [1, N, 1] array of bits over its last (unit) axis by `and`
  from the constant 1: where every bit is 1 the result is 1.
-/
import proofs.«424766_j76897094467881_1_alg».proof.Proof.Gen.ReferenceIdeal
import Idealize.ShloMosaic.Lib.ValueIdx
import Idealize.ShloMosaic.Lib.ReduceAll

noncomputable section

namespace Cert.ReferenceIdeal.RefGather

open Cert.ReferenceIdeal Cert.ReferenceIdeal.Gen Idealize.ShloMosaic Idealize.ShloMosaic.ValueIdx

/-- The start-indices element that result element (r, 0, n) reads its start index from: (0, n, 0). -/
theorem siIdx_eq (r : Fin 4) (n : Fin 4194304) (c : Fin gather_S4x6x4194304_S1x4194304x1_S4x1x4194304_0_1_2_1_1_2_411.startIndexMap.length) :
    gather_S4x6x4194304_S1x4194304x1_S4x1x4194304_0_1_2_1_1_2_411.siIdx (ix3 r (0 : Fin 1) n) c = ix3 (0 : Fin 1) n (0 : Fin 1) := by
  funext b
  refine Fin.ext ?_
  have hc : c.val = 0 := by have := c.isLt; simp only [gather_S4x6x4194304_S1x4194304x1_S4x1x4194304_0_1_2_1_1_2_411, List.length_cons, List.length_nil] at this; omega
  match b with
  | ⟨0, _⟩ => rfl
  | ⟨1, _⟩ => rfl
  | ⟨2, _⟩ => exact hc

/-- THE GATHER READ AT (r, 0, n): the operand at (r, s, n), `s` the start index at (0, n, 0) read signed and clamped to [0, 5]. -/
theorem gather_at {α : Type} (x : S4x6x4194304.Idx → α) (idx : IVec S1x4194304x1 32) (r : Fin 4) (n : Fin 4194304) :
    Host.gather gather_S4x6x4194304_S1x4194304x1_S4x1x4194304_0_1_2_1_1_2_411 x idx (ix3 r (0 : Fin 1) n)
      = x (ix3 r ⟨min (idx (ix3 (0 : Fin 1) n (0 : Fin 1))).toInt.toNat 5, by omega⟩ n) := by
  unfold Host.gather
  congr 1
  funext a
  refine Fin.ext ?_
  match a with
  | ⟨0, _⟩ =>
    show gather_S4x6x4194304_S1x4194304x1_S4x1x4194304_0_1_2_1_1_2_411.start (ix3 r (0 : Fin 1) n) idx 0
      + gather_S4x6x4194304_S1x4194304x1_S4x1x4194304_0_1_2_1_1_2_411.batchCoord (ix3 r (0 : Fin 1) n) 0
      + gather_S4x6x4194304_S1x4194304x1_S4x1x4194304_0_1_2_1_1_2_411.offCoord (ix3 r (0 : Fin 1) n) 0 = r.val
    rw [GatherDims.batchCoord_eq_zero _ _ _ (by decide)]
    unfold GatherDims.start
    rw [dif_neg (by decide)]
    unfold GatherDims.offCoord
    rw [dif_pos (by decide)]
    show 0 + 0 + r.val = r.val
    omega
  | ⟨1, _⟩ =>
    show gather_S4x6x4194304_S1x4194304x1_S4x1x4194304_0_1_2_1_1_2_411.start (ix3 r (0 : Fin 1) n) idx 1
      + gather_S4x6x4194304_S1x4194304x1_S4x1x4194304_0_1_2_1_1_2_411.batchCoord (ix3 r (0 : Fin 1) n) 1
      + gather_S4x6x4194304_S1x4194304x1_S4x1x4194304_0_1_2_1_1_2_411.offCoord (ix3 r (0 : Fin 1) n) 1
      = min (idx (ix3 (0 : Fin 1) n (0 : Fin 1))).toInt.toNat 5
    rw [GatherDims.batchCoord_eq_zero _ _ _ (by decide), GatherDims.offCoord_eq_zero _ _ _ (by decide)]
    unfold GatherDims.start
    rw [dif_pos (by decide), siIdx_eq]
    rfl
  | ⟨2, _⟩ =>
    show gather_S4x6x4194304_S1x4194304x1_S4x1x4194304_0_1_2_1_1_2_411.start (ix3 r (0 : Fin 1) n) idx 2
      + gather_S4x6x4194304_S1x4194304x1_S4x1x4194304_0_1_2_1_1_2_411.batchCoord (ix3 r (0 : Fin 1) n) 2
      + gather_S4x6x4194304_S1x4194304x1_S4x1x4194304_0_1_2_1_1_2_411.offCoord (ix3 r (0 : Fin 1) n) 2 = n.val
    rw [GatherDims.start_batching _ _ _ _ (by decide), GatherDims.offCoord_eq_zero _ _ _ (by decide)]
    unfold GatherDims.batchCoord
    rw [dif_pos (by decide)]
    show 0 + n.val + 0 = n.val
    omega

/-- A left fold by `and` from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_one f l fun n hn => h n (List.mem_cons_of_mem _ hn)

/-- THE GUARD: an `and`-reduce, from the constant 1, of an array whose every bit is 1, is 1 everywhere. -/
theorem reduce_all_one (x : S1x4194304x1.Idx → BitVec 1) (hx : ∀ i, x i = 1#1) (j : S1x4194304.Idx) :
    Host.reduce IntOp.andi x (constantI S_ 1 1#1) reducesTo_S1x4194304x1_S1x4194304_d2 h_S_ j = 1#1 := by
  rw [Host.reduce_eq_foldl]
  exact foldl_andi_one x _ fun n _ => hx n

end Cert.ReferenceIdeal.RefGather

end
-- ==== Proof.RefValue.lean ====
/-
  The reference's result is the specification, for admissible pair indices.

  At (r, n) the reference reads: the final reshape at (r, 0, n) of the guarded gather; the guard, an `all` over a unit axis
  of "0 ≤ i ≤ 5" for the wrapped index `i`, which for an index already in `[0, 6)` is the index itself (no wrap: it is
  not negative) and passes the test; so the gathered value is kept, and it is the dense head at (r, i, n), the start
  index clamped to [0, 5] being `i` again: `(∑ k, W[r,i,k] · z[n,k]) + b[r,i]`.
-/
import proofs.«424766_j76897094467881_1_alg».proof.Proof.HostRun
import proofs.«424766_j76897094467881_1_alg».proof.Proof.RefGather
import proofs.«424766_j76897094467881_1_alg».proof.Proof.PairSelect
import Idealize.ShloMosaic.PureOps.Ideal.Laws
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.HostRun Cert.ReferenceIdeal.RefGather Cert.PairSelect
open Idealize.ShloMosaic Idealize.ShloMosaic.ValueIdx

/-! ## The dense heads at (r, p, n) -/

theorem lhs_dot_0 (i : S4x6x4194304.Idx) (q : dot_S4x6x64_S4194304x64_S4x6x4194304_2_1_01_0_n_n.contr.Idx) :
    (dot_S4x6x64_S4194304x64_S4x6x4194304_2_1_01_0_n_n.lhsIdx i q 0).val = (i 0).val := by
  unfold DotDims.lhsIdx
  rw [dif_neg (show ¬(0 : Fin S4x6x64.rank) ∈ dot_S4x6x64_S4194304x64_S4x6x4194304_2_1_01_0_n_n.lhsBatch by decide), dif_pos (show (0 : Fin S4x6x64.rank) ∈ dot_S4x6x64_S4194304x64_S4x6x4194304_2_1_01_0_n_n.lhsNonContracting by decide)]
  rfl
theorem lhs_dot_1 (i : S4x6x4194304.Idx) (q : dot_S4x6x64_S4194304x64_S4x6x4194304_2_1_01_0_n_n.contr.Idx) :
    (dot_S4x6x64_S4194304x64_S4x6x4194304_2_1_01_0_n_n.lhsIdx i q 1).val = (i 1).val := by
  unfold DotDims.lhsIdx
  rw [dif_neg (show ¬(1 : Fin S4x6x64.rank) ∈ dot_S4x6x64_S4194304x64_S4x6x4194304_2_1_01_0_n_n.lhsBatch by decide), dif_pos (show (1 : Fin S4x6x64.rank) ∈ dot_S4x6x64_S4194304x64_S4x6x4194304_2_1_01_0_n_n.lhsNonContracting by decide)]
  rfl
theorem lhs_dot_2 (i : S4x6x4194304.Idx) (q : dot_S4x6x64_S4194304x64_S4x6x4194304_2_1_01_0_n_n.contr.Idx) :
    (dot_S4x6x64_S4194304x64_S4x6x4194304_2_1_01_0_n_n.lhsIdx i q 2).val = (q ⟨0, by decide⟩).val :=
  dot_S4x6x64_S4194304x64_S4x6x4194304_2_1_01_0_n_n.lhsIdx_val_of_single rfl i q
theorem rhs_dot_0 (i : S4x6x4194304.Idx) (q : dot_S4x6x64_S4194304x64_S4x6x4194304_2_1_01_0_n_n.contr.Idx) :
    (dot_S4x6x64_S4194304x64_S4x6x4194304_2_1_01_0_n_n.rhsIdx i q 0).val = (i 2).val := by
  unfold DotDims.rhsIdx
  rw [dif_neg (show ¬(0 : Fin S4194304x64.rank) ∈ dot_S4x6x64_S4194304x64_S4x6x4194304_2_1_01_0_n_n.rhsBatch by decide), dif_pos (show (0 : Fin S4194304x64.rank) ∈ dot_S4x6x64_S4194304x64_S4x6x4194304_2_1_01_0_n_n.rhsNonContracting by decide)]
  rfl
theorem rhs_dot_1 (i : S4x6x4194304.Idx) (q : dot_S4x6x64_S4194304x64_S4x6x4194304_2_1_01_0_n_n.contr.Idx) :
    (dot_S4x6x64_S4194304x64_S4x6x4194304_2_1_01_0_n_n.rhsIdx i q 1).val = (q ⟨0, by decide⟩).val :=
  dot_S4x6x64_S4194304x64_S4x6x4194304_2_1_01_0_n_n.rhsIdx_val_of_single rfl i q

/-- The host's product of the weights with z, at (r, p, n): the sum over the 64 latent coordinates. -/
theorem dot_at (x0 : FVec Ideal S4194304x64 .f32) (x1 : FVec Ideal S4x6x64 .f32) (r : Fin 4) (p : Fin 6) (n : Fin 4194304) :
    Host.dotGeneral dot_S4x6x64_S4194304x64_S4x6x4194304_2_1_01_0_n_n none x1 x0 (ix3 r p n)
      = ∑ k : Fin 64, x1 (ix3 r p k) * x0 (ix2 n k) := by
  simp only [Host.dotGeneral]
  rw [Ideal.dotGeneral_apply, ← Equiv.sum_comp (contrEquiv1 dot_S4x6x64_S4194304x64_S4x6x4194304_2_1_01_0_n_n 64 rfl rfl).symm]
  refine Finset.sum_congr rfl fun k _ => ?_
  have hk := contrEquiv1_symm_val dot_S4x6x64_S4194304x64_S4x6x4194304_2_1_01_0_n_n 64 rfl rfl k
  have el : dot_S4x6x64_S4194304x64_S4x6x4194304_2_1_01_0_n_n.lhsIdx (ix3 r p n) ((contrEquiv1 dot_S4x6x64_S4194304x64_S4x6x4194304_2_1_01_0_n_n 64 rfl rfl).symm k) = ix3 r p k := funext fun a => Fin.ext (by
    match a with
    | ⟨0, _⟩ => exact lhs_dot_0 _ _
    | ⟨1, _⟩ => exact lhs_dot_1 _ _
    | ⟨2, _⟩ => exact (lhs_dot_2 _ _).trans hk)
  have er : dot_S4x6x64_S4194304x64_S4x6x4194304_2_1_01_0_n_n.rhsIdx (ix3 r p n) ((contrEquiv1 dot_S4x6x64_S4194304x64_S4x6x4194304_2_1_01_0_n_n 64 rfl rfl).symm k) = ix2 n k := funext fun a => Fin.ext (by
    match a with
    | ⟨0, _⟩ => exact rhs_dot_0 _ _
    | ⟨1, _⟩ => exact (rhs_dot_1 _ _).trans hk)
  rw [el, er]

/-- The bias laid along the rows, at (r, p, n): the bias at (r, p). -/
theorem bias_at (x2 : FVec Ideal S4x6 .f32) (r : Fin 4) (p : Fin 6) (n : Fin 4194304) :
    broadcastInDim S4x6x4194304 ![0, 1, 2] bcast_S4x6x1_S4x6x4194304_0_1_2 (broadcastInDim S4x6x1 ![0, 1] bcast_S4x6_S4x6x1_0_1 x2) (ix3 r p n)
      = x2 (ix2 r p) := by
  refine (broadcastInDim_apply _ bcast_S4x6x1_S4x6x4194304_0_1_2 _ (ix3 r p n) (ix3 r p (0 : Fin 1)) (fun a => match a with
    | ⟨0, _⟩ => by show r.val = if (4 : Nat) = 1 then 0 else r.val; rw [if_neg (by decide)]
    | ⟨1, _⟩ => by show p.val = if (6 : Nat) = 1 then 0 else p.val; rw [if_neg (by decide)]
    | ⟨2, _⟩ => by show 0 = if (1 : Nat) = 1 then 0 else n.val; rw [if_pos rfl])).trans ?_
  exact broadcastInDim_apply _ bcast_S4x6_S4x6x1_0_1 x2 (ix3 r p (0 : Fin 1)) (ix2 r p) (fun a => match a with
    | ⟨0, _⟩ => by show r.val = if (4 : Nat) = 1 then 0 else r.val; rw [if_neg (by decide)]
    | ⟨1, _⟩ => by show p.val = if (6 : Nat) = 1 then 0 else p.val; rw [if_neg (by decide)])

/-- The dense heads at (r, p, n). -/
theorem logits_at (x0 : FVec Ideal S4194304x64 .f32) (x1 : FVec Ideal S4x6x64 .f32) (x2 : FVec Ideal S4x6 .f32)
    (r : Fin 4) (p : Fin 6) (n : Fin 4194304) :
    logits (F := Ideal) x0 x1 x2 (ix3 r p n) = (∑ k : Fin 64, x1 (ix3 r p k) * x0 (ix2 n k)) + x2 (ix2 r p) := by
  unfold logits
  rw [addf_apply, dot_at, bias_at]

/-! ## The wrapped index and the guard -/

/-- The pair indices laid along the row axis, at (0, 0, n). -/
theorem laid_at (x3 : IVec S4194304 32) (n : Fin 4194304) :
    laid (F := Ideal) x3 (ix3 (0 : Fin 1) (0 : Fin 1) n) = x3 (ix1 n) := by
  unfold laid
  exact broadcastInDim_apply _ bcast_S4194304_S1x1x4194304_2 x3 (ix3 (0 : Fin 1) (0 : Fin 1) n) (ix1 n) (fun a => match a with
    | ⟨0, _⟩ => by show n.val = if (4194304 : Nat) = 1 then 0 else n.val; rw [if_neg (by decide)])

/-- An admissible pair index is not wrapped: the start index at (a, n, b) is the pair index of row n. -/
theorem wrapped_at (x3 : IVec S4194304 32) (hr : ∀ n : Fin 4194304, InRange (x3 (ix1 n))) (a : Fin 1) (n : Fin 4194304) (b : Fin 1) :
    wrapped (F := Ideal) (laid (F := Ideal) x3) (ix3 a n b) = x3 (ix1 n) := by
  unfold wrapped
  refine (shapeCast_apply _ shapeCasts_S1x1x4194304_S1x4194304x1 (ix3 a n b) (ix3 (0 : Fin 1) (0 : Fin 1) n) ?_).trans ?_
  · rewrite [Shape.rowMajor_val_three, Shape.rowMajor_val_three]
    have ha : a.val < 1 := a.isLt
    have hb : b.val < 1 := b.isLt
    show (0 * 1 + 0) * 4194304 + n.val = (a.val * 4194304 + n.val) * 1 + b.val
    omega
  · rw [select_apply]
    have hc : cmpi .slt (laid (F := Ideal) x3) (broadcastInDim S1x1x4194304 ![] bcast_S_S1x1x4194304 (constantI S_ 32 0#32))
        (ix3 (0 : Fin 1) (0 : Fin 1) n) = 0#1 := by
      refine eq_zero_of_ne_one fun h => ?_
      have h' : IntOp.cmpi .slt (laid (F := Ideal) x3 (ix3 (0 : Fin 1) (0 : Fin 1) n)) 0#32 = 1#1 := h
      rw [laid_at] at h'
      have h1 := IntOp.cmpi_slt.1 h'
      have h0 := (hr n).1
      have z0 : (0#32 : BitVec 32).toInt = 0 := by decide
      omega
    rw [hc, select_zero, laid_at]

/-- Every bit of the range test is 1. -/
theorem in_bounds (x3 : IVec S4194304 32) (hr : ∀ n : Fin 4194304, InRange (x3 (ix1 n))) (i : S1x4194304x1.Idx) :
    andi (cmpi .sge (wrapped (F := Ideal) (laid (F := Ideal) x3)) (broadcastInDim S1x4194304x1 ![] bcast_S_S1x4194304x1 (constantI S_ 32 0#32)))
      (cmpi .sle (wrapped (F := Ideal) (laid (F := Ideal) x3))
        (broadcastInDim S1x4194304x1 ![0, 1, 2] bcast_S1x1x1_S1x4194304x1_0_1_2 (broadcastInDim S1x1x1 ![2] bcast_S1_S1x1x1_2 (constantI S1 32 5#32)))) i
      = 1#1 := by
  obtain ⟨a, n, b, rfl⟩ : ∃ (a : Fin 1) (n : Fin 4194304) (b : Fin 1), i = ix3 a n b := ⟨i 0, i 1, i 2, eq_ix3 i⟩
  show IntOp.andi (IntOp.cmpi .sge (wrapped (F := Ideal) (laid (F := Ideal) x3) (ix3 a n b)) 0#32)
    (IntOp.cmpi .sle (wrapped (F := Ideal) (laid (F := Ideal) x3) (ix3 a n b)) 5#32) = 1#1
  rw [wrapped_at x3 hr]
  have h0 := (hr n).1
  have h1 := (hr n).2
  have z0 : (0#32 : BitVec 32).toInt = 0 := by decide
  have z5 : (5#32 : BitVec 32).toInt = 5 := by decide
  exact IntOp.andi_eq_one.2 ⟨IntOp.cmpi_sge.2 (by omega), IntOp.cmpi_sle.2 (by omega)⟩

/-- The gather at (r, 0, n) with the start index's clamped value named. -/
theorem gather_pos {α : Type} (x : S4x6x4194304.Idx → α) (idx : IVec S1x4194304x1 32) (r : Fin 4) (n : Fin 4194304) (s : Fin 6)
    (hs : min (idx (ix3 (0 : Fin 1) n (0 : Fin 1))).toInt.toNat 5 = s.val) :
    Host.gather gather_S4x6x4194304_S1x4194304x1_S4x1x4194304_0_1_2_1_1_2_411 x idx (ix3 r (0 : Fin 1) n) = x (ix3 r s n) := by
  rw [gather_at]
  congr 1
  funext a
  match a with
  | ⟨0, _⟩ => rfl
  | ⟨1, _⟩ => exact Fin.ext hs
  | ⟨2, _⟩ => rfl

/-! ## The reference's result -/

/-- THE REFERENCE'S RESULT IS THE SPECIFICATION, for admissible pair indices. -/
theorem refValue_eq (x0 : FVec Ideal S4194304x64 .f32) (x1 : FVec Ideal S4x6x64 .f32) (x2 : FVec Ideal S4x6 .f32) (x3 : IVec S4194304 32)
    (hr : ∀ n : Fin 4194304, InRange (x3 (ix1 n))) :
    refValue (F := Ideal) x0 x1 x2 x3 = selected x0 x1 x2 x3 := by
  funext i
  obtain ⟨r, n, rfl⟩ : ∃ (r : Fin 4) (n : Fin 4194304), i = ix2 r n := ⟨i 0, i 1, eq_ix2 i⟩
  rw [selected_apply]
  unfold refValue
  refine (shapeCast_apply _ shapeCasts_S4x1x4194304_S4x4194304 (ix2 r n) (ix3 r (0 : Fin 1) n) ?_).trans ?_
  · rewrite [Shape.rowMajor_val_three, Shape.rowMajor_val_two]
    show (r.val * 1 + 0) * 4194304 + n.val = r.val * 4194304 + n.val
    omega
  · unfold taken
    rw [select_apply]
    have hm : broadcastInDim S4x1x4194304 ![1, 2] bcast_S1x4194304_S4x1x4194304_1_2
        (Host.reduce IntOp.andi (andi (cmpi .sge (wrapped (F := Ideal) (laid (F := Ideal) x3)) (broadcastInDim S1x4194304x1 ![] bcast_S_S1x4194304x1 (constantI S_ 32 0#32)))
          (cmpi .sle (wrapped (F := Ideal) (laid (F := Ideal) x3)) (broadcastInDim S1x4194304x1 ![0, 1, 2] bcast_S1x1x1_S1x4194304x1_0_1_2 (broadcastInDim S1x1x1 ![2] bcast_S1_S1x1x1_2 (constantI S1 32 5#32)))))
          (constantI S_ 1 1#1) reducesTo_S1x4194304x1_S1x4194304_d2 h_S_) (ix3 r (0 : Fin 1) n) = 1#1 := by
      unfold broadcastInDim
      exact reduce_all_one _ (in_bounds x3 hr) _
    rw [hm, select_one]
    have hw := wrapped_at x3 hr (0 : Fin 1) n (0 : Fin 1)
    rw [gather_pos _ _ r n (pos (x3 (ix1 n))) (by
      rw [hw, (hr n).pos_val]
      have h1 := (hr n).toInt_eq
      have h2 := (hr n).toNat_lt
      omega), logits_at]
    rfl

end Cert.ReferenceIdeal.RefValue

end
-- ==== Proof.lean ====
/-
  The certificate's claim: the relation-probe kernel against its jnp reference, over the extended reals.

  Both programs compute, for relation `r` and row `n`, the head of the pair the row's index `p = pair_idx[n]` names:
      `out[r, n] = (∑ k < 64, W[r, p, k] · z[n, k]) + b[r, p]`.
  The reference computes all 24 heads and gathers along the pair axis (jnp's `take_along_axis`, which wraps a negative
  index and fills an out-of-range one); the kernel computes the six heads of each relation tile by tile and selects one by
  a one-hot mask: `∑ q, head[q] · [p = q]`.  The two agree exactly when every pair index lies in `[0, 6)`, which the
  precondition states (outside it the reference wraps or fills while the mask selects nothing); there the mask's sum is
  the one head at `q = p`, since `x · 0 = 0` and `x · 1 = x` for every extended real — finiteness of the inputs is
  not used.  The kernel's frames are the generated ones; the reference's frame is its run with the result dropped; the
  idealization rewrote nothing, so `preserves` is trivial.
-/
import proofs.«424766_j76897094467881_1_alg».proof.Defs
import proofs.«424766_j76897094467881_1_alg».proof.Proof.Gen.Kernel
import proofs.«424766_j76897094467881_1_alg».proof.Proof.Gen.Kernel.Skeleton
import proofs.«424766_j76897094467881_1_alg».proof.Proof.Gen.Kernel.Launch
import proofs.«424766_j76897094467881_1_alg».proof.Proof.Gen.Kernel.Points
import proofs.«424766_j76897094467881_1_alg».proof.Proof.Gen.Kernel.Frame
import proofs.«424766_j76897094467881_1_alg».proof.Proof.Gen.KernelIdeal
import proofs.«424766_j76897094467881_1_alg».proof.Proof.Gen.KernelIdeal.Skeleton
import proofs.«424766_j76897094467881_1_alg».proof.Proof.Gen.KernelIdeal.Launch
import proofs.«424766_j76897094467881_1_alg».proof.Proof.Gen.KernelIdeal.Points
import proofs.«424766_j76897094467881_1_alg».proof.Proof.Gen.KernelIdeal.Frame
import proofs.«424766_j76897094467881_1_alg».proof.Proof.Gen.KernelIdeal.Value
import proofs.«424766_j76897094467881_1_alg».proof.Proof.Gen.ReferenceIdeal
import proofs.«424766_j76897094467881_1_alg».proof.Proof.Gen.Pre_finite_inputs
import proofs.«424766_j76897094467881_1_alg».proof.Proof.PreDecode
import proofs.«424766_j76897094467881_1_alg».proof.Proof.KernelRun
import proofs.«424766_j76897094467881_1_alg».proof.Proof.HostRun
import proofs.«424766_j76897094467881_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.PairSelect

/-- The kernel as printed runs and leaves its arguments (the generated frame, at the bit-exact instance). -/
theorem frame_k : Cert.frame_Kernel := fun m ρ _ => Cert.Kernel.Gen.frame m ρ

/-- The idealized kernel runs and leaves its arguments (the generated frame, at the ideal instance). -/
theorem frame_ki : Cert.frame_KernelIdeal := fun m ρ _ => Cert.KernelIdeal.Gen.frame m ρ

/-- The reference runs and leaves its arguments: its run, read back, with the result dropped. -/
theorem frame_ri : Cert.frame_ReferenceIdeal := fun m ρ _ =>
  (θ_run Cert.ReferenceIdeal.defs _ _).mono (fun _ h c => (h c).2) (Cert.ReferenceIdeal.HostRun.run (F := Ideal) m ρ)

/-- Under the precondition both programs end with the specification `selected` of the (agreeing) arguments: the kernel
    by its tiles' one-hot selection, the reference by its guarded gather. -/
theorem algebraic : Cert.algebraic_KernelIdeal_ReferenceIdeal := by
  intro m ρ m' ρ' hpre hagree
  have hr : ∀ (c : Dev Cert.KernelIdeal.nD) (n : Fin 4194304),
      InRange (m ((c : Thread Cert.KernelIdeal.nD Cert.KernelIdeal.τ).loc Cert.KernelIdeal.main_arg3) (ix1 n)) :=
    fun c n => Cert.Pre_finite_inputs.Decode.range_of_pre _ _ _ _ (hpre c) n
  refine ⟨_, Cert.KernelIdeal.KernelRun.run m ρ hr, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2]
  exact Cert.ReferenceIdeal.RefValue.refValue_eq _ _ _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
